-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v245)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v245) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v265) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S640000 : Shape := ⟨1, ![640000]⟩
abbrev S2x128x128 : Shape := ⟨3, ![2, 128, 128]⟩
abbrev S2x128 : Shape := ⟨2, ![2, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_

variable [Facts]

def fn_part2 {F : FTy → Type} [FloatOps F] (main_arg9 : FVec F S2x128 .f32) (main_arg10 : FVec F S2x128 .f32) (main_v33 : IVec S_ 1) : IVec S_ 1 :=
  let main_v34 : FVec F S2x128 .f32 := Host.absf main_arg9
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x128 .f32 := Host.absf main_arg10
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  main_v43

def fn_part1 {F : FTy → Type} [FloatOps F] (main_arg6 : FVec F S2x128 .f32) (main_arg7 : FVec F S2x128x128 .f32) (main_arg8 : FVec F S2x128 .f32) (main_arg9 : FVec F S2x128 .f32) (main_arg10 : FVec F S2x128 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128 .f32 := Host.absf main_arg6
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S2x128x128 .f32 := Host.absf main_arg7
  let main_cst_8 : FVec F S_ .f32 := constant S_ .f32 0x7F800000#32
  let main_v25 : FVec F S2x128x128 .f32 := broadcastInDim S2x128x128 ![] bcast_S_S2x128x128 main_cst_8
  let main_v26 : IVec S2x128x128 1 := cmpf .olt main_v24 main_v25
  let main_c_9 : IVec S_ 1 := constantI S_ 1 1#1
  let main_v27 : IVec S_ 1 := (fun x v => Host.reduce IntOp.andi x v reducesTo_S2x128x128_S_d0_1_2 h_S_) main_v26 main_c_9
  let main_v28 : IVec S_ 1 := andi main_v23 main_v27
  let main_v29 : FVec F S2x128 .f32 := Host.absf main_arg8
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x640000 32) (main_arg2 : FVec F S640000 .f32) (main_arg3 : IVec S2x640000 32) (main_arg4 : FVec F S640000 .f32) (main_arg5 : FVec F S2x128x128 .f32) (main_arg6 : FVec F S2x128 .f32) (main_arg7 : FVec F S2x128x128 .f32) (main_arg8 : FVec F S2x128 .f32) (main_arg9 : FVec F S2x128 .f32) (main_arg10 : FVec F S2x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S640000 .f32 := Host.absf main_arg4
  let main_cst_2 : FVec F S_ .f32 := constant S_ .f32 0x7F800000#32
  let main_v10 : FVec F S640000 .f32 := broadcastInDim S640000 ![] bcast_S_S640000 main_cst_2
  let main_v11 : IVec S640000 1 := cmpf .olt main_v9 main_v10
  let main_c_3 : IVec S_ 1 := constantI S_ 1 1#1
  let main_v12 : IVec S_ 1 := (fun x v => Host.reduce IntOp.andi x v reducesTo_S640000_S_d0 h_S_) main_v11 main_c_3
  let main_v13 : IVec S_ 1 := andi main_v8 main_v12
  let main_v14 : FVec F S2x128x128 .f32 := Host.absf main_arg5
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x640000 : Shape := ⟨2, ![2, 640000]⟩
abbrev S640000 : Shape := ⟨1, ![640000]⟩
abbrev S2x128x128 : Shape := ⟨3, ![2, 128, 128]⟩
abbrev S2x128 : Shape := ⟨2, ![2, 128]⟩
abbrev S1x640000 : Shape := ⟨2, ![1, 640000]⟩
abbrev S1x128x128 : Shape := ⟨3, ![1, 128, 128]⟩
abbrev S128x128 : Shape := ⟨2, ![128, 128]⟩
abbrev S5000x128 : Shape := ⟨2, ![5000, 128]⟩
abbrev S50000 : Shape := ⟨1, ![50000]⟩
abbrev S690000 : Shape := ⟨1, ![690000]⟩
abbrev S_ : Shape := ⟨0, ![]⟩
abbrev S690000x1 : Shape := ⟨2, ![690000, 1]⟩
abbrev S690000x128 : Shape := ⟨2, ![690000, 128]⟩
abbrev S1x128 : Shape := ⟨2, ![1, 128]⟩
abbrev S128 : Shape := ⟨1, ![128]⟩

abbrev nBuf : Space → Nat
  | .hbm => 319
  | .vmem => 36
  | .smem => 0
  | _ => 0

abbrev hbmTy0_0 (i : Nat) : BufTy := match i % 128 with
  | 0 => ⟨S50000x128, .f32⟩
  | 1 => ⟨S2x640000, .i32⟩
  | 2 => ⟨S640000, .f32⟩
  | 3 => ⟨S2x640000, .i32⟩
  | 4 => ⟨S640000, .f32⟩
  | 5 => ⟨S2x128x128, .f32⟩
  | 6 => ⟨S2x128, .f32⟩
  | 7 => ⟨S2x128x128, .f32⟩
  | 8 => ⟨S2x128, .f32⟩
  | 9 => ⟨S2x128, .f32⟩
  | 10 => ⟨S2x128, .f32⟩
  | 11 => ⟨S1x640000, .i32⟩
  | 12 => ⟨S640000, .i32⟩
  | 13 => ⟨S1x640000, .i32⟩
  | 14 => ⟨S640000, .i32⟩
  | 15 => ⟨S1x640000, .i32⟩
  | 16 => ⟨S640000, .i32⟩
  | 17 => ⟨S1x640000, .i32⟩
  | 18 => ⟨S640000, .i32⟩
  | 19 => ⟨S1x128x128, .f32⟩
  | 20 => ⟨S128x128, .f32⟩
  | 21 => ⟨S50000x128, .f32⟩
  | 22 => ⟨S50000, .i32⟩
  | 23 => ⟨S690000, .i32⟩
  | 24 => ⟨S690000, .i32⟩
  | 25 => ⟨S_, .f32⟩
  | 26 => ⟨S50000, .f32⟩
  | 27 => ⟨S690000, .f32⟩
  | 28 => ⟨S_, .f32⟩
  | 29 => ⟨S50000, .f32⟩
  | 30 => ⟨S690000x1, .i32⟩
  | 31 => ⟨S50000, .f32⟩
  | 32 => ⟨S_, .f32⟩
  | 33 => ⟨S50000, .f32⟩
  | 34 => ⟨S50000, .i1⟩
  | 35 => ⟨S50000, .f32⟩
  | 36 => ⟨S_, .f32⟩
  | 37 => ⟨S_, .f32⟩
  | 38 => ⟨S50000, .f32⟩
  | 39 => ⟨S50000, .f32⟩
  | 40 => ⟨S_, .i32⟩
  | 41 => ⟨S690000, .i32⟩
  | 42 => ⟨S690000, .i1⟩
  | 43 => ⟨S_, .i32⟩
  | 44 => ⟨S690000, .i32⟩
  | 45 => ⟨S690000, .i32⟩
  | 46 => ⟨S690000, .i32⟩
  | 47 => ⟨S690000x1, .i32⟩
  | 48 => ⟨S690000, .f32⟩
  | 49 => ⟨S690000, .f32⟩
  | 50 => ⟨S_, .i32⟩
  | 51 => ⟨S690000, .i32⟩
  | 52 => ⟨S690000, .i1⟩
  | 53 => ⟨S_, .i32⟩
  | 54 => ⟨S690000, .i32⟩
  | 55 => ⟨S690000, .i32⟩
  | 56 => ⟨S690000, .i32⟩
  | 57 => ⟨S690000x1, .i32⟩
  | 58 => ⟨S690000, .f32⟩
  | 59 => ⟨S690000, .f32⟩
  | 60 => ⟨S_, .i32⟩
  | 61 => ⟨S690000, .i32⟩
  | 62 => ⟨S690000, .i1⟩
  | 63 => ⟨S_, .i32⟩
  | 64 => ⟨S690000, .i32⟩
  | 65 => ⟨S690000, .i32⟩
  | 66 => ⟨S690000, .i32⟩
  | 67 => ⟨S690000x1, .i32⟩
  | 68 => ⟨S690000x128, .f32⟩
  | 69 => ⟨S690000x1, .f32⟩
  | 70 => ⟨S690000x128, .f32⟩
  | 71 => ⟨S690000x128, .f32⟩
  | 72 => ⟨S_, .f32⟩
  | 73 => ⟨S50000x128, .f32⟩
  | 74 => ⟨S690000x1, .i32⟩
  | 75 => ⟨S50000x128, .f32⟩
  | 76 => ⟨S1x128x128, .f32⟩
  | 77 => ⟨S128x128, .f32⟩
  | 78 => ⟨S50000x128, .f32⟩
  | 79 => ⟨S50000, .i32⟩
  | 80 => ⟨S690000, .i32⟩
  | 81 => ⟨S690000, .i32⟩
  | 82 => ⟨S_, .f32⟩
  | 83 => ⟨S50000, .f32⟩
  | 84 => ⟨S690000, .f32⟩
  | 85 => ⟨S_, .f32⟩
  | 86 => ⟨S50000, .f32⟩
  | 87 => ⟨S690000x1, .i32⟩
  | 88 => ⟨S50000, .f32⟩
  | 89 => ⟨S_, .f32⟩
  | 90 => ⟨S50000, .f32⟩
  | 91 => ⟨S50000, .i1⟩
  | 92 => ⟨S50000, .f32⟩
  | 93 => ⟨S_, .f32⟩
  | 94 => ⟨S_, .f32⟩
  | 95 => ⟨S50000, .f32⟩
  | 96 => ⟨S50000, .f32⟩
  | 97 => ⟨S_, .i32⟩
  | 98 => ⟨S690000, .i32⟩
  | 99 => ⟨S690000, .i1⟩
  | 100 => ⟨S_, .i32⟩
  | 101 => ⟨S690000, .i32⟩
  | 102 => ⟨S690000, .i32⟩
  | 103 => ⟨S690000, .i32⟩
  | 104 => ⟨S690000x1, .i32⟩
  | 105 => ⟨S690000, .f32⟩
  | 106 => ⟨S690000, .f32⟩
  | 107 => ⟨S_, .i32⟩
  | 108 => ⟨S690000, .i32⟩
  | 109 => ⟨S690000, .i1⟩
  | 110 => ⟨S_, .i32⟩
  | 111 => ⟨S690000, .i32⟩
  | 112 => ⟨S690000, .i32⟩
  | 113 => ⟨S690000, .i32⟩
  | 114 => ⟨S690000x1, .i32⟩
  | 115 => ⟨S690000, .f32⟩
  | 116 => ⟨S690000, .f32⟩
  | 117 => ⟨S_, .i32⟩
  | 118 => ⟨S690000, .i32⟩
  | 119 => ⟨S690000, .i1⟩
  | 120 => ⟨S_, .i32⟩
  | 121 => ⟨S690000, .i32⟩
  | 122 => ⟨S690000, .i32⟩
  | 123 => ⟨S690000, .i32⟩
  | 124 => ⟨S690000x1, .i32⟩
  | 125 => ⟨S690000x128, .f32⟩
  | 126 => ⟨S690000x1, .f32⟩
  | 127 => ⟨S690000x128, .f32⟩
  | _ => ⟨S50000x128, .f32⟩

abbrev hbmTy0_1 (i : Nat) : BufTy := match i % 128 with
  | 0 => ⟨S690000x128, .f32⟩
  | 1 => ⟨S_, .f32⟩
  | 2 => ⟨S50000x128, .f32⟩
  | 3 => ⟨S690000x1, .i32⟩
  | 4 => ⟨S50000x128, .f32⟩
  | 5 => ⟨S1x128, .f32⟩
  | 6 => ⟨S128, .f32⟩
  | 7 => ⟨S1x128, .f32⟩
  | 8 => ⟨S128, .f32⟩
  | 9 => ⟨S128, .f32⟩
  | 10 => ⟨S50000x128, .f32⟩
  | 11 => ⟨S1x128, .f32⟩
  | 12 => ⟨S50000x128, .f32⟩
  | 13 => ⟨S50000x128, .f32⟩
  | 14 => ⟨S_, .f32⟩
  | 15 => ⟨S128, .f32⟩
  | 16 => ⟨S_, .f32⟩
  | 17 => ⟨S128, .f32⟩
  | 18 => ⟨S128, .f32⟩
  | 19 => ⟨S1x128, .f32⟩
  | 20 => ⟨S50000x128, .f32⟩
  | 21 => ⟨S50000x128, .f32⟩
  | 22 => ⟨S50000x128, .f32⟩
  | 23 => ⟨S_, .f32⟩
  | 24 => ⟨S128, .f32⟩
  | 25 => ⟨S_, .f32⟩
  | 26 => ⟨S128, .f32⟩
  | 27 => ⟨S128, .f32⟩
  | 28 => ⟨S_, .f32⟩
  | 29 => ⟨S128, .f32⟩
  | 30 => ⟨S128, .f32⟩
  | 31 => ⟨S128, .f32⟩
  | 32 => ⟨S1x128, .f32⟩
  | 33 => ⟨S128, .f32⟩
  | 34 => ⟨S1x128, .f32⟩
  | 35 => ⟨S128, .f32⟩
  | 36 => ⟨S1x128, .f32⟩
  | 37 => ⟨S1x128, .f32⟩
  | 38 => ⟨S1x128, .f32⟩
  | 39 => ⟨S1x128, .f32⟩
  | 40 => ⟨S50000x128, .f32⟩
  | 41 => ⟨S1x128x128, .f32⟩
  | 42 => ⟨S128x128, .f32⟩
  | 43 => ⟨S50000x128, .f32⟩
  | 44 => ⟨S50000, .i32⟩
  | 45 => ⟨S690000, .i32⟩
  | 46 => ⟨S690000, .i32⟩
  | 47 => ⟨S_, .f32⟩
  | 48 => ⟨S50000, .f32⟩
  | 49 => ⟨S690000, .f32⟩
  | 50 => ⟨S_, .f32⟩
  | 51 => ⟨S50000, .f32⟩
  | 52 => ⟨S690000x1, .i32⟩
  | 53 => ⟨S50000, .f32⟩
  | 54 => ⟨S_, .f32⟩
  | 55 => ⟨S50000, .f32⟩
  | 56 => ⟨S50000, .i1⟩
  | 57 => ⟨S50000, .f32⟩
  | 58 => ⟨S_, .f32⟩
  | 59 => ⟨S_, .f32⟩
  | 60 => ⟨S50000, .f32⟩
  | 61 => ⟨S50000, .f32⟩
  | 62 => ⟨S_, .i32⟩
  | 63 => ⟨S690000, .i32⟩
  | 64 => ⟨S690000, .i1⟩
  | 65 => ⟨S_, .i32⟩
  | 66 => ⟨S690000, .i32⟩
  | 67 => ⟨S690000, .i32⟩
  | 68 => ⟨S690000, .i32⟩
  | 69 => ⟨S690000x1, .i32⟩
  | 70 => ⟨S690000, .f32⟩
  | 71 => ⟨S690000, .f32⟩
  | 72 => ⟨S_, .i32⟩
  | 73 => ⟨S690000, .i32⟩
  | 74 => ⟨S690000, .i1⟩
  | 75 => ⟨S_, .i32⟩
  | 76 => ⟨S690000, .i32⟩
  | 77 => ⟨S690000, .i32⟩
  | 78 => ⟨S690000, .i32⟩
  | 79 => ⟨S690000x1, .i32⟩
  | 80 => ⟨S690000, .f32⟩
  | 81 => ⟨S690000, .f32⟩
  | 82 => ⟨S_, .i32⟩
  | 83 => ⟨S690000, .i32⟩
  | 84 => ⟨S690000, .i1⟩
  | 85 => ⟨S_, .i32⟩
  | 86 => ⟨S690000, .i32⟩
  | 87 => ⟨S690000, .i32⟩
  | 88 => ⟨S690000, .i32⟩
  | 89 => ⟨S690000x1, .i32⟩
  | 90 => ⟨S690000x128, .f32⟩
  | 91 => ⟨S690000x1, .f32⟩
  | 92 => ⟨S690000x128, .f32⟩
  | 93 => ⟨S690000x128, .f32⟩
  | 94 => ⟨S_, .f32⟩
  | 95 => ⟨S50000x128, .f32⟩
  | 96 => ⟨S690000x1, .i32⟩
  | 97 => ⟨S50000x128, .f32⟩
  | 98 => ⟨S1x128x128, .f32⟩
  | 99 => ⟨S128x128, .f32⟩
  | 100 => ⟨S50000x128, .f32⟩
  | 101 => ⟨S50000, .i32⟩
  | 102 => ⟨S690000, .i32⟩
  | 103 => ⟨S690000, .i32⟩
  | 104 => ⟨S_, .f32⟩
  | 105 => ⟨S50000, .f32⟩
  | 106 => ⟨S690000, .f32⟩
  | 107 => ⟨S_, .f32⟩
  | 108 => ⟨S50000, .f32⟩
  | 109 => ⟨S690000x1, .i32⟩
  | 110 => ⟨S50000, .f32⟩
  | 111 => ⟨S_, .f32⟩
  | 112 => ⟨S50000, .f32⟩
  | 113 => ⟨S50000, .i1⟩
  | 114 => ⟨S50000, .f32⟩
  | 115 => ⟨S_, .f32⟩
  | 116 => ⟨S_, .f32⟩
  | 117 => ⟨S50000, .f32⟩
  | 118 => ⟨S50000, .f32⟩
  | 119 => ⟨S_, .i32⟩
  | 120 => ⟨S690000, .i32⟩
  | 121 => ⟨S690000, .i1⟩
  | 122 => ⟨S_, .i32⟩
  | 123 => ⟨S690000, .i32⟩
  | 124 => ⟨S690000, .i32⟩
  | 125 => ⟨S690000, .i32⟩
  | 126 => ⟨S690000x1, .i32⟩
  | 127 => ⟨S690000, .f32⟩
  | _ => ⟨S50000x128, .f32⟩

abbrev hbmTy0_2 (i : Nat) : BufTy := match i % 128 with
  | 0 => ⟨S690000, .f32⟩
  | 1 => ⟨S_, .i32⟩
  | 2 => ⟨S690000, .i32⟩
  | 3 => ⟨S690000, .i1⟩
  | 4 => ⟨S_, .i32⟩
  | 5 => ⟨S690000, .i32⟩
  | 6 => ⟨S690000, .i32⟩
  | 7 => ⟨S690000, .i32⟩
  | 8 => ⟨S690000x1, .i32⟩
  | 9 => ⟨S690000, .f32⟩
  | 10 => ⟨S690000, .f32⟩
  | 11 => ⟨S_, .i32⟩
  | 12 => ⟨S690000, .i32⟩
  | 13 => ⟨S690000, .i1⟩
  | 14 => ⟨S_, .i32⟩
  | 15 => ⟨S690000, .i32⟩
  | 16 => ⟨S690000, .i32⟩
  | 17 => ⟨S690000, .i32⟩
  | 18 => ⟨S690000x1, .i32⟩
  | 19 => ⟨S690000x128, .f32⟩
  | 20 => ⟨S690000x1, .f32⟩
  | 21 => ⟨S690000x128, .f32⟩
  | 22 => ⟨S690000x128, .f32⟩
  | 23 => ⟨S_, .f32⟩
  | 24 => ⟨S50000x128, .f32⟩
  | 25 => ⟨S690000x1, .i32⟩
  | 26 => ⟨S50000x128, .f32⟩
  | 27 => ⟨S1x128, .f32⟩
  | 28 => ⟨S128, .f32⟩
  | 29 => ⟨S1x128, .f32⟩
  | 30 => ⟨S128, .f32⟩
  | 31 => ⟨S128, .f32⟩
  | 32 => ⟨S50000x128, .f32⟩
  | 33 => ⟨S1x128, .f32⟩
  | 34 => ⟨S50000x128, .f32⟩
  | 35 => ⟨S50000x128, .f32⟩
  | 36 => ⟨S_, .f32⟩
  | 37 => ⟨S128, .f32⟩
  | 38 => ⟨S_, .f32⟩
  | 39 => ⟨S128, .f32⟩
  | 40 => ⟨S128, .f32⟩
  | 41 => ⟨S1x128, .f32⟩
  | 42 => ⟨S50000x128, .f32⟩
  | 43 => ⟨S50000x128, .f32⟩
  | 44 => ⟨S50000x128, .f32⟩
  | 45 => ⟨S_, .f32⟩
  | 46 => ⟨S128, .f32⟩
  | 47 => ⟨S_, .f32⟩
  | 48 => ⟨S128, .f32⟩
  | 49 => ⟨S128, .f32⟩
  | 50 => ⟨S_, .f32⟩
  | 51 => ⟨S128, .f32⟩
  | 52 => ⟨S128, .f32⟩
  | 53 => ⟨S128, .f32⟩
  | 54 => ⟨S1x128, .f32⟩
  | 55 => ⟨S128, .f32⟩
  | 56 => ⟨S1x128, .f32⟩
  | 57 => ⟨S128, .f32⟩
  | 58 => ⟨S1x128, .f32⟩
  | 59 => ⟨S1x128, .f32⟩
  | 60 => ⟨S1x128, .f32⟩
  | 61 => ⟨S1x128, .f32⟩
  | 62 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v22 : Ref sig .tc := ⟨.hbm, 39, rfl⟩
abbrev main_c : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_4 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_6 : Ref sig .tc := ⟨.hbm, 60, rfl⟩
abbrev main_v39 : Ref sig .tc := ⟨.hbm, 61, rfl⟩
abbrev main_v40 : Ref sig .tc := ⟨.hbm, 62, rfl⟩
abbrev main_c_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_9 : Ref sig .tc := ⟨.hbm, 82, rfl⟩
abbrev main_v58 : Ref sig .tc := ⟨.hbm, 83, rfl⟩
abbrev main_v59 : Ref sig .tc := ⟨.hbm, 84, rfl⟩
abbrev main_cst_10 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_11 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_12 : Ref sig .tc := ⟨.hbm, 93, rfl⟩
abbrev main_call1_v0 : Ref sig .tc := ⟨.hbm, 94, rfl⟩
abbrev main_call1_v1 : Ref sig .tc := ⟨.hbm, 95, rfl⟩
abbrev main_v66 : Ref sig .tc := ⟨.hbm, 96, rfl⟩
abbrev main_c_13 : Ref sig .tc := ⟨.hbm, 97, rfl⟩
abbrev main_v67 : Ref sig .tc := ⟨.hbm, 98, rfl⟩
abbrev main_v68 : Ref sig .tc := ⟨.hbm, 99, rfl⟩
abbrev main_c_14 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_15 : Ref sig .tc := ⟨.hbm, 107, rfl⟩
abbrev main_v75 : Ref sig .tc := ⟨.hbm, 108, rfl⟩
abbrev main_v76 : Ref sig .tc := ⟨.hbm, 109, rfl⟩
abbrev main_c_16 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_c_17 : Ref sig .tc := ⟨.hbm, 117, rfl⟩
abbrev main_v83 : Ref sig .tc := ⟨.hbm, 118, rfl⟩
abbrev main_v84 : Ref sig .tc := ⟨.hbm, 119, rfl⟩
abbrev main_c_18 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_19 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_20 : Ref sig .tc := ⟨.hbm, 142, rfl⟩
abbrev main_v105 : Ref sig .tc := ⟨.hbm, 143, rfl⟩
abbrev main_cst_21 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_cst_22 : Ref sig .tc := ⟨.hbm, 151, rfl⟩
abbrev main_v112 : Ref sig .tc := ⟨.hbm, 152, rfl⟩
abbrev main_cst_23 : Ref sig .tc := ⟨.hbm, 153, rfl⟩
abbrev main_v113 : Ref sig .tc := ⟨.hbm, 154, rfl⟩
abbrev main_v114 : Ref sig .tc := ⟨.hbm, 155, rfl⟩
abbrev main_cst_24 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_cst_25 : Ref sig .tc := ⟨.hbm, 175, rfl⟩
abbrev main_v133 : Ref sig .tc := ⟨.hbm, 176, rfl⟩
abbrev main_v134 : Ref sig .tc := ⟨.hbm, 177, rfl⟩
abbrev main_cst_26 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_cst_27 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_cst_28 : Ref sig .tc := ⟨.hbm, 186, rfl⟩
abbrev main_call2_v0 : Ref sig .tc := ⟨.hbm, 187, rfl⟩
abbrev main_call2_v1 : Ref sig .tc := ⟨.hbm, 188, rfl⟩
abbrev main_v141 : Ref sig .tc := ⟨.hbm, 189, rfl⟩
abbrev main_c_29 : Ref sig .tc := ⟨.hbm, 190, rfl⟩
abbrev main_v142 : Ref sig .tc := ⟨.hbm, 191, rfl⟩
abbrev main_v143 : Ref sig .tc := ⟨.hbm, 192, rfl⟩
abbrev main_c_30 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_c_31 : Ref sig .tc := ⟨.hbm, 200, rfl⟩
abbrev main_v150 : Ref sig .tc := ⟨.hbm, 201, rfl⟩
abbrev main_v151 : Ref sig .tc := ⟨.hbm, 202, rfl⟩
abbrev main_c_32 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_c_33 : Ref sig .tc := ⟨.hbm, 210, rfl⟩
abbrev main_v158 : Ref sig .tc := ⟨.hbm, 211, rfl⟩
abbrev main_v159 : Ref sig .tc := ⟨.hbm, 212, rfl⟩
abbrev main_c_34 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_cst_35 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_cst_36 : Ref sig .tc := ⟨.hbm, 232, rfl⟩
abbrev main_v177 : Ref sig .tc := ⟨.hbm, 233, rfl⟩
abbrev main_v178 : Ref sig .tc := ⟨.hbm, 234, rfl⟩
abbrev main_cst_37 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_cst_38 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_cst_39 : Ref sig .tc := ⟨.hbm, 243, rfl⟩
abbrev main_call3_v0 : Ref sig .tc := ⟨.hbm, 244, rfl⟩
abbrev main_call3_v1 : Ref sig .tc := ⟨.hbm, 245, rfl⟩
abbrev main_v185 : Ref sig .tc := ⟨.hbm, 246, rfl⟩
abbrev main_c_40 : Ref sig .tc := ⟨.hbm, 247, rfl⟩
abbrev main_v186 : Ref sig .tc := ⟨.hbm, 248, rfl⟩
abbrev main_v187 : Ref sig .tc := ⟨.hbm, 249, rfl⟩
abbrev main_c_41 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_c_42 : Ref sig .tc := ⟨.hbm, 257, rfl⟩
abbrev main_v194 : Ref sig .tc := ⟨.hbm, 258, rfl⟩
abbrev main_v195 : Ref sig .tc := ⟨.hbm, 259, rfl⟩
abbrev main_c_43 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_c_44 : Ref sig .tc := ⟨.hbm, 267, rfl⟩
abbrev main_v202 : Ref sig .tc := ⟨.hbm, 268, rfl⟩
abbrev main_v203 : Ref sig .tc := ⟨.hbm, 269, rfl⟩
abbrev main_c_45 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_cst_46 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_v215 : Ref sig .tc := ⟨.hbm, 283, rfl⟩
abbrev main_v216 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_cst_47 : Ref sig .tc := ⟨.hbm, 292, rfl⟩
abbrev main_v224 : Ref sig .tc := ⟨.hbm, 293, rfl⟩
abbrev main_cst_48 : Ref sig .tc := ⟨.hbm, 294, rfl⟩
abbrev main_v225 : Ref sig .tc := ⟨.hbm, 295, rfl⟩
abbrev main_v226 : Ref sig .tc := ⟨.hbm, 296, rfl⟩
abbrev main_v227 : Ref sig .tc := ⟨.hbm, 297, rfl⟩
abbrev main_v228 : Ref sig .tc := ⟨.hbm, 298, rfl⟩
abbrev main_v229 : Ref sig .tc := ⟨.hbm, 299, rfl⟩
abbrev main_v230 : Ref sig .tc := ⟨.hbm, 300, rfl⟩
abbrev main_cst_49 : Ref sig .tc := ⟨.hbm, 301, rfl⟩
abbrev main_v231 : Ref sig .tc := ⟨.hbm, 302, rfl⟩
abbrev main_cst_50 : Ref sig .tc := ⟨.hbm, 303, rfl⟩
abbrev main_v232 : Ref sig .tc := ⟨.hbm, 304, rfl⟩
abbrev main_v233 : Ref sig .tc := ⟨.hbm, 305, rfl⟩
abbrev main_cst_51 : Ref sig .tc := ⟨.hbm, 306, rfl⟩
abbrev main_v234 : Ref sig .tc := ⟨.hbm, 307, rfl⟩
abbrev main_v235 : Ref sig .tc := ⟨.hbm, 308, rfl⟩
abbrev main_v236 : Ref sig .tc := ⟨.hbm, 309, rfl⟩
abbrev main_v237 : Ref sig .tc := ⟨.hbm, 310, rfl⟩
abbrev main_v238 : Ref sig .tc := ⟨.hbm, 311, rfl⟩
abbrev main_v239 : Ref sig .tc := ⟨.hbm, 312, rfl⟩
abbrev main_v240 : Ref sig .tc := ⟨.hbm, 313, rfl⟩
abbrev main_v241 : Ref sig .tc := ⟨.hbm, 314, rfl⟩
abbrev main_v242 : Ref sig .tc := ⟨.hbm, 315, rfl⟩
abbrev main_v243 : Ref sig .tc := ⟨.hbm, 316, rfl⟩
abbrev main_v244 : Ref sig .tc := ⟨.hbm, 317, rfl⟩
abbrev main_v245 : Ref sig .tc := ⟨.hbm, 318, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg5_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg4_0 : Ref sig .tc := ⟨.vmem, 33, rfl⟩
abbrev cc5_stg5_0 : Ref sig .tc := ⟨.vmem, 34, rfl⟩
abbrev cc5_stg5_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem5_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem3_0 : DmaSem sig := 32
abbrev cc5_sem4_0 : DmaSem sig := 33
abbrev cc5_sem5_0 : DmaSem sig := 34
abbrev cc5_sem5_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  slices_S2x128x128_S1x128x128_0_0_0 : S2x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  concatenates_S640000_S50000_S690000_d0 : Shape.Concatenates [S640000, S50000] S690000 0
  bcast_S_S50000 : S_.BroadcastsInDim S50000 (![] : Fin 0 → Fin S50000.rank)
  bcast_S690000_S690000x1_0 : S690000.BroadcastsInDim S690000x1 (![0] : Fin 1 → Fin S690000x1.rank)
  bcast_S_S690000 : S_.BroadcastsInDim S690000 (![] : Fin 0 → Fin S690000.rank)
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x128x128_S1x128x128_1_0_0 : S2x128x128.Slices ![1, 0, 0] S1x128x128
  slices_S2x128_S1x128_1_0 : S2x128.Slices ![1, 0] S1x128
  dot_S5000x128_S128x128_S5000x128_1_0_0_1_n_n_wf : DotDims.WF S5000x128 S128x128 S5000x128 [1] [0] [0] [1] [] []
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v104) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v122) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v123) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v124) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v125) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v126) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v126) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v128) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v129) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v126) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v172) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v173) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v223) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v241) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v242) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v243) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v244) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v245) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S640000 : Shape := ⟨1, ![640000]⟩
abbrev S2x128x128 : Shape := ⟨3, ![2, 128, 128]⟩
abbrev S2x128 : Shape := ⟨2, ![2, 128]⟩
abbrev S1x640000 : Shape := ⟨2, ![1, 640000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S50000 : Shape := ⟨1, ![50000]⟩
abbrev S690000 : Shape := ⟨1, ![690000]⟩
abbrev S_ : Shape := ⟨0, ![]⟩
abbrev S690000x1 : Shape := ⟨2, ![690000, 1]⟩
abbrev S690000x128 : Shape := ⟨2, ![690000, 128]⟩

abbrev nBuf : Space → Nat
  | .hbm => 343
  | .vmem => 0
  | .smem => 0
  | _ => 0

abbrev hbmTy0_0 (i : Nat) : BufTy := match i % 128 with
  | 0 => ⟨S50000x128, .f32⟩
  | 1 => ⟨S2x640000, .i32⟩
  | 2 => ⟨S640000, .f32⟩
  | 3 => ⟨S2x640000, .i32⟩
  | 4 => ⟨S640000, .f32⟩
  | 5 => ⟨S2x128x128, .f32⟩
  | 6 => ⟨S2x128, .f32⟩
  | 7 => ⟨S2x128x128, .f32⟩
  | 8 => ⟨S2x128, .f32⟩
  | 9 => ⟨S2x128, .f32⟩
  | 10 => ⟨S2x128, .f32⟩
  | 11 => ⟨S1x640000, .i32⟩
  | 12 => ⟨S640000, .i32⟩
  | 13 => ⟨S1x640000, .i32⟩
  | 14 => ⟨S640000, .i32⟩
  | 15 => ⟨S1x640000, .i32⟩
  | 16 => ⟨S640000, .i32⟩
  | 17 => ⟨S1x640000, .i32⟩
  | 18 => ⟨S640000, .i32⟩
  | 19 => ⟨S1x128x128, .f32⟩
  | 20 => ⟨S128x128, .f32⟩
  | 21 => ⟨S1x128, .f32⟩
  | 22 => ⟨S128, .f32⟩
  | 23 => ⟨S50000x128, .f32⟩
  | 24 => ⟨S50000, .i32⟩
  | 25 => ⟨S690000, .i32⟩
  | 26 => ⟨S690000, .i32⟩
  | 27 => ⟨S_, .f32⟩
  | 28 => ⟨S50000, .f32⟩
  | 29 => ⟨S690000, .f32⟩
  | 30 => ⟨S_, .f32⟩
  | 31 => ⟨S50000, .f32⟩
  | 32 => ⟨S690000x1, .i32⟩
  | 33 => ⟨S50000, .f32⟩
  | 34 => ⟨S_, .f32⟩
  | 35 => ⟨S50000, .f32⟩
  | 36 => ⟨S50000, .i1⟩
  | 37 => ⟨S50000, .f32⟩
  | 38 => ⟨S_, .f32⟩
  | 39 => ⟨S_, .f32⟩
  | 40 => ⟨S50000, .f32⟩
  | 41 => ⟨S50000, .f32⟩
  | 42 => ⟨S_, .i32⟩
  | 43 => ⟨S690000, .i32⟩
  | 44 => ⟨S690000, .i1⟩
  | 45 => ⟨S_, .i32⟩
  | 46 => ⟨S690000, .i32⟩
  | 47 => ⟨S690000, .i32⟩
  | 48 => ⟨S690000, .i32⟩
  | 49 => ⟨S690000x1, .i32⟩
  | 50 => ⟨S690000, .f32⟩
  | 51 => ⟨S690000, .f32⟩
  | 52 => ⟨S_, .i32⟩
  | 53 => ⟨S690000, .i32⟩
  | 54 => ⟨S690000, .i1⟩
  | 55 => ⟨S_, .i32⟩
  | 56 => ⟨S690000, .i32⟩
  | 57 => ⟨S690000, .i32⟩
  | 58 => ⟨S690000, .i32⟩
  | 59 => ⟨S690000x1, .i32⟩
  | 60 => ⟨S690000, .f32⟩
  | 61 => ⟨S690000, .f32⟩
  | 62 => ⟨S_, .i32⟩
  | 63 => ⟨S690000, .i32⟩
  | 64 => ⟨S690000, .i1⟩
  | 65 => ⟨S_, .i32⟩
  | 66 => ⟨S690000, .i32⟩
  | 67 => ⟨S690000, .i32⟩
  | 68 => ⟨S690000, .i32⟩
  | 69 => ⟨S690000x1, .i32⟩
  | 70 => ⟨S690000x128, .f32⟩
  | 71 => ⟨S690000x1, .f32⟩
  | 72 => ⟨S690000x128, .f32⟩
  | 73 => ⟨S690000x128, .f32⟩
  | 74 => ⟨S_, .f32⟩
  | 75 => ⟨S50000x128, .f32⟩
  | 76 => ⟨S690000x1, .i32⟩
  | 77 => ⟨S50000x128, .f32⟩
  | 78 => ⟨S1x128, .f32⟩
  | 79 => ⟨S50000x128, .f32⟩
  | 80 => ⟨S50000x128, .f32⟩
  | 81 => ⟨S1x128x128, .f32⟩
  | 82 => ⟨S128x128, .f32⟩
  | 83 => ⟨S1x128, .f32⟩
  | 84 => ⟨S128, .f32⟩
  | 85 => ⟨S50000x128, .f32⟩
  | 86 => ⟨S50000, .i32⟩
  | 87 => ⟨S690000, .i32⟩
  | 88 => ⟨S690000, .i32⟩
  | 89 => ⟨S_, .f32⟩
  | 90 => ⟨S50000, .f32⟩
  | 91 => ⟨S690000, .f32⟩
  | 92 => ⟨S_, .f32⟩
  | 93 => ⟨S50000, .f32⟩
  | 94 => ⟨S690000x1, .i32⟩
  | 95 => ⟨S50000, .f32⟩
  | 96 => ⟨S_, .f32⟩
  | 97 => ⟨S50000, .f32⟩
  | 98 => ⟨S50000, .i1⟩
  | 99 => ⟨S50000, .f32⟩
  | 100 => ⟨S_, .f32⟩
  | 101 => ⟨S_, .f32⟩
  | 102 => ⟨S50000, .f32⟩
  | 103 => ⟨S50000, .f32⟩
  | 104 => ⟨S_, .i32⟩
  | 105 => ⟨S690000, .i32⟩
  | 106 => ⟨S690000, .i1⟩
  | 107 => ⟨S_, .i32⟩
  | 108 => ⟨S690000, .i32⟩
  | 109 => ⟨S690000, .i32⟩
  | 110 => ⟨S690000, .i32⟩
  | 111 => ⟨S690000x1, .i32⟩
  | 112 => ⟨S690000, .f32⟩
  | 113 => ⟨S690000, .f32⟩
  | 114 => ⟨S_, .i32⟩
  | 115 => ⟨S690000, .i32⟩
  | 116 => ⟨S690000, .i1⟩
  | 117 => ⟨S_, .i32⟩
  | 118 => ⟨S690000, .i32⟩
  | 119 => ⟨S690000, .i32⟩
  | 120 => ⟨S690000, .i32⟩
  | 121 => ⟨S690000x1, .i32⟩
  | 122 => ⟨S690000, .f32⟩
  | 123 => ⟨S690000, .f32⟩
  | 124 => ⟨S_, .i32⟩
  | 125 => ⟨S690000, .i32⟩
  | 126 => ⟨S690000, .i1⟩
  | 127 => ⟨S_, .i32⟩
  | _ => ⟨S50000x128, .f32⟩

abbrev hbmTy0_1 (i : Nat) : BufTy := match i % 128 with
  | 0 => ⟨S690000, .i32⟩
  | 1 => ⟨S690000, .i32⟩
  | 2 => ⟨S690000, .i32⟩
  | 3 => ⟨S690000x1, .i32⟩
  | 4 => ⟨S690000x128, .f32⟩
  | 5 => ⟨S690000x1, .f32⟩
  | 6 => ⟨S690000x128, .f32⟩
  | 7 => ⟨S690000x128, .f32⟩
  | 8 => ⟨S_, .f32⟩
  | 9 => ⟨S50000x128, .f32⟩
  | 10 => ⟨S690000x1, .i32⟩
  | 11 => ⟨S50000x128, .f32⟩
  | 12 => ⟨S1x128, .f32⟩
  | 13 => ⟨S50000x128, .f32⟩
  | 14 => ⟨S50000x128, .f32⟩
  | 15 => ⟨S50000x128, .f32⟩
  | 16 => ⟨S1x128, .f32⟩
  | 17 => ⟨S128, .f32⟩
  | 18 => ⟨S1x128, .f32⟩
  | 19 => ⟨S128, .f32⟩
  | 20 => ⟨S_, .f32⟩
  | 21 => ⟨S128, .f32⟩
  | 22 => ⟨S_, .f32⟩
  | 23 => ⟨S128, .f32⟩
  | 24 => ⟨S128, .f32⟩
  | 25 => ⟨S1x128, .f32⟩
  | 26 => ⟨S50000x128, .f32⟩
  | 27 => ⟨S50000x128, .f32⟩
  | 28 => ⟨S50000x128, .f32⟩
  | 29 => ⟨S_, .f32⟩
  | 30 => ⟨S128, .f32⟩
  | 31 => ⟨S_, .f32⟩
  | 32 => ⟨S128, .f32⟩
  | 33 => ⟨S128, .f32⟩
  | 34 => ⟨S1x128, .f32⟩
  | 35 => ⟨S50000x128, .f32⟩
  | 36 => ⟨S50000x128, .f32⟩
  | 37 => ⟨S_, .f32⟩
  | 38 => ⟨S128, .f32⟩
  | 39 => ⟨S128, .f32⟩
  | 40 => ⟨S128, .f32⟩
  | 41 => ⟨S1x128, .f32⟩
  | 42 => ⟨S50000x128, .f32⟩
  | 43 => ⟨S50000x128, .f32⟩
  | 44 => ⟨S1x128, .f32⟩
  | 45 => ⟨S50000x128, .f32⟩
  | 46 => ⟨S50000x128, .f32⟩
  | 47 => ⟨S1x128, .f32⟩
  | 48 => ⟨S50000x128, .f32⟩
  | 49 => ⟨S50000x128, .f32⟩
  | 50 => ⟨S_, .f32⟩
  | 51 => ⟨S50000x128, .f32⟩
  | 52 => ⟨S50000x128, .f32⟩
  | 53 => ⟨S1x128x128, .f32⟩
  | 54 => ⟨S128x128, .f32⟩
  | 55 => ⟨S1x128, .f32⟩
  | 56 => ⟨S128, .f32⟩
  | 57 => ⟨S50000x128, .f32⟩
  | 58 => ⟨S50000, .i32⟩
  | 59 => ⟨S690000, .i32⟩
  | 60 => ⟨S690000, .i32⟩
  | 61 => ⟨S_, .f32⟩
  | 62 => ⟨S50000, .f32⟩
  | 63 => ⟨S690000, .f32⟩
  | 64 => ⟨S_, .f32⟩
  | 65 => ⟨S50000, .f32⟩
  | 66 => ⟨S690000x1, .i32⟩
  | 67 => ⟨S50000, .f32⟩
  | 68 => ⟨S_, .f32⟩
  | 69 => ⟨S50000, .f32⟩
  | 70 => ⟨S50000, .i1⟩
  | 71 => ⟨S50000, .f32⟩
  | 72 => ⟨S_, .f32⟩
  | 73 => ⟨S_, .f32⟩
  | 74 => ⟨S50000, .f32⟩
  | 75 => ⟨S50000, .f32⟩
  | 76 => ⟨S_, .i32⟩
  | 77 => ⟨S690000, .i32⟩
  | 78 => ⟨S690000, .i1⟩
  | 79 => ⟨S_, .i32⟩
  | 80 => ⟨S690000, .i32⟩
  | 81 => ⟨S690000, .i32⟩
  | 82 => ⟨S690000, .i32⟩
  | 83 => ⟨S690000x1, .i32⟩
  | 84 => ⟨S690000, .f32⟩
  | 85 => ⟨S690000, .f32⟩
  | 86 => ⟨S_, .i32⟩
  | 87 => ⟨S690000, .i32⟩
  | 88 => ⟨S690000, .i1⟩
  | 89 => ⟨S_, .i32⟩
  | 90 => ⟨S690000, .i32⟩
  | 91 => ⟨S690000, .i32⟩
  | 92 => ⟨S690000, .i32⟩
  | 93 => ⟨S690000x1, .i32⟩
  | 94 => ⟨S690000, .f32⟩
  | 95 => ⟨S690000, .f32⟩
  | 96 => ⟨S_, .i32⟩
  | 97 => ⟨S690000, .i32⟩
  | 98 => ⟨S690000, .i1⟩
  | 99 => ⟨S_, .i32⟩
  | 100 => ⟨S690000, .i32⟩
  | 101 => ⟨S690000, .i32⟩
  | 102 => ⟨S690000, .i32⟩
  | 103 => ⟨S690000x1, .i32⟩
  | 104 => ⟨S690000x128, .f32⟩
  | 105 => ⟨S690000x1, .f32⟩
  | 106 => ⟨S690000x128, .f32⟩
  | 107 => ⟨S690000x128, .f32⟩
  | 108 => ⟨S_, .f32⟩
  | 109 => ⟨S50000x128, .f32⟩
  | 110 => ⟨S690000x1, .i32⟩
  | 111 => ⟨S50000x128, .f32⟩
  | 112 => ⟨S1x128, .f32⟩
  | 113 => ⟨S50000x128, .f32⟩
  | 114 => ⟨S50000x128, .f32⟩
  | 115 => ⟨S1x128x128, .f32⟩
  | 116 => ⟨S128x128, .f32⟩
  | 117 => ⟨S1x128, .f32⟩
  | 118 => ⟨S128, .f32⟩
  | 119 => ⟨S50000x128, .f32⟩
  | 120 => ⟨S50000, .i32⟩
  | 121 => ⟨S690000, .i32⟩
  | 122 => ⟨S690000, .i32⟩
  | 123 => ⟨S_, .f32⟩
  | 124 => ⟨S50000, .f32⟩
  | 125 => ⟨S690000, .f32⟩
  | 126 => ⟨S_, .f32⟩
  | 127 => ⟨S50000, .f32⟩
  | _ => ⟨S50000x128, .f32⟩

abbrev hbmTy0_2 (i : Nat) : BufTy := match i % 128 with
  | 0 => ⟨S690000x1, .i32⟩
  | 1 => ⟨S50000, .f32⟩
  | 2 => ⟨S_, .f32⟩
  | 3 => ⟨S50000, .f32⟩
  | 4 => ⟨S50000, .i1⟩
  | 5 => ⟨S50000, .f32⟩
  | 6 => ⟨S_, .f32⟩
  | 7 => ⟨S_, .f32⟩
  | 8 => ⟨S50000, .f32⟩
  | 9 => ⟨S50000, .f32⟩
  | 10 => ⟨S_, .i32⟩
  | 11 => ⟨S690000, .i32⟩
  | 12 => ⟨S690000, .i1⟩
  | 13 => ⟨S_, .i32⟩
  | 14 => ⟨S690000, .i32⟩
  | 15 => ⟨S690000, .i32⟩
  | 16 => ⟨S690000, .i32⟩
  | 17 => ⟨S690000x1, .i32⟩
  | 18 => ⟨S690000, .f32⟩
  | 19 => ⟨S690000, .f32⟩
  | 20 => ⟨S_, .i32⟩
  | 21 => ⟨S690000, .i32⟩
  | 22 => ⟨S690000, .i1⟩
  | 23 => ⟨S_, .i32⟩
  | 24 => ⟨S690000, .i32⟩
  | 25 => ⟨S690000, .i32⟩
  | 26 => ⟨S690000, .i32⟩
  | 27 => ⟨S690000x1, .i32⟩
  | 28 => ⟨S690000, .f32⟩
  | 29 => ⟨S690000, .f32⟩
  | 30 => ⟨S_, .i32⟩
  | 31 => ⟨S690000, .i32⟩
  | 32 => ⟨S690000, .i1⟩
  | 33 => ⟨S_, .i32⟩
  | 34 => ⟨S690000, .i32⟩
  | 35 => ⟨S690000, .i32⟩
  | 36 => ⟨S690000, .i32⟩
  | 37 => ⟨S690000x1, .i32⟩
  | 38 => ⟨S690000x128, .f32⟩
  | 39 => ⟨S690000x1, .f32⟩
  | 40 => ⟨S690000x128, .f32⟩
  | 41 => ⟨S690000x128, .f32⟩
  | 42 => ⟨S_, .f32⟩
  | 43 => ⟨S50000x128, .f32⟩
  | 44 => ⟨S690000x1, .i32⟩
  | 45 => ⟨S50000x128, .f32⟩
  | 46 => ⟨S1x128, .f32⟩
  | 47 => ⟨S50000x128, .f32⟩
  | 48 => ⟨S50000x128, .f32⟩
  | 49 => ⟨S50000x128, .f32⟩
  | 50 => ⟨S1x128, .f32⟩
  | 51 => ⟨S128, .f32⟩
  | 52 => ⟨S1x128, .f32⟩
  | 53 => ⟨S128, .f32⟩
  | 54 => ⟨S_, .f32⟩
  | 55 => ⟨S128, .f32⟩
  | 56 => ⟨S_, .f32⟩
  | 57 => ⟨S128, .f32⟩
  | 58 => ⟨S128, .f32⟩
  | 59 => ⟨S1x128, .f32⟩
  | 60 => ⟨S50000x128, .f32⟩
  | 61 => ⟨S50000x128, .f32⟩
  | 62 => ⟨S50000x128, .f32⟩
  | 63 => ⟨S_, .f32⟩
  | 64 => ⟨S128, .f32⟩
  | 65 => ⟨S_, .f32⟩
  | 66 => ⟨S128, .f32⟩
  | 67 => ⟨S128, .f32⟩
  | 68 => ⟨S1x128, .f32⟩
  | 69 => ⟨S50000x128, .f32⟩
  | 70 => ⟨S50000x128, .f32⟩
  | 71 => ⟨S_, .f32⟩
  | 72 => ⟨S128, .f32⟩
  | 73 => ⟨S128, .f32⟩
  | 74 => ⟨S128, .f32⟩
  | 75 => ⟨S1x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S_, .f32⟩
  | 85 => ⟨S50000x128, .f32⟩
  | 86 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_v24 : Ref sig .tc := ⟨.hbm, 41, rfl⟩
abbrev main_c : Ref sig .tc := ⟨.hbm, 42, rfl⟩
abbrev main_v25 : Ref sig .tc := ⟨.hbm, 43, rfl⟩
abbrev main_v26 : Ref sig .tc := ⟨.hbm, 44, rfl⟩
abbrev main_c_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_4 : Ref sig .tc := ⟨.hbm, 52, rfl⟩
abbrev main_v33 : Ref sig .tc := ⟨.hbm, 53, rfl⟩
abbrev main_v34 : Ref sig .tc := ⟨.hbm, 54, rfl⟩
abbrev main_c_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_6 : Ref sig .tc := ⟨.hbm, 62, rfl⟩
abbrev main_v41 : Ref sig .tc := ⟨.hbm, 63, rfl⟩
abbrev main_v42 : Ref sig .tc := ⟨.hbm, 64, rfl⟩
abbrev main_c_7 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_8 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_9 : Ref sig .tc := ⟨.hbm, 89, rfl⟩
abbrev main_v65 : Ref sig .tc := ⟨.hbm, 90, rfl⟩
abbrev main_v66 : Ref sig .tc := ⟨.hbm, 91, rfl⟩
abbrev main_cst_10 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_11 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_12 : Ref sig .tc := ⟨.hbm, 100, rfl⟩
abbrev main_call1_v0 : Ref sig .tc := ⟨.hbm, 101, rfl⟩
abbrev main_call1_v1 : Ref sig .tc := ⟨.hbm, 102, rfl⟩
abbrev main_v73 : Ref sig .tc := ⟨.hbm, 103, rfl⟩
abbrev main_c_13 : Ref sig .tc := ⟨.hbm, 104, rfl⟩
abbrev main_v74 : Ref sig .tc := ⟨.hbm, 105, rfl⟩
abbrev main_v75 : Ref sig .tc := ⟨.hbm, 106, rfl⟩
abbrev main_c_14 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_c_15 : Ref sig .tc := ⟨.hbm, 114, rfl⟩
abbrev main_v82 : Ref sig .tc := ⟨.hbm, 115, rfl⟩
abbrev main_v83 : Ref sig .tc := ⟨.hbm, 116, rfl⟩
abbrev main_c_16 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_c_17 : Ref sig .tc := ⟨.hbm, 124, rfl⟩
abbrev main_v90 : Ref sig .tc := ⟨.hbm, 125, rfl⟩
abbrev main_v91 : Ref sig .tc := ⟨.hbm, 126, rfl⟩
abbrev main_c_18 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_19 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_cst_20 : Ref sig .tc := ⟨.hbm, 148, rfl⟩
abbrev main_v111 : Ref sig .tc := ⟨.hbm, 149, rfl⟩
abbrev main_cst_21 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_cst_22 : Ref sig .tc := ⟨.hbm, 157, rfl⟩
abbrev main_v118 : Ref sig .tc := ⟨.hbm, 158, rfl⟩
abbrev main_cst_23 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_24 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_call2_cst : Ref sig .tc := ⟨.hbm, 178, rfl⟩
abbrev main_call2_v0 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_cst_25 : Ref sig .tc := ⟨.hbm, 189, rfl⟩
abbrev main_v145 : Ref sig .tc := ⟨.hbm, 190, rfl⟩
abbrev main_v146 : Ref sig .tc := ⟨.hbm, 191, rfl⟩
abbrev main_cst_26 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_cst_27 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_cst_28 : Ref sig .tc := ⟨.hbm, 200, rfl⟩
abbrev main_call3_v0 : Ref sig .tc := ⟨.hbm, 201, rfl⟩
abbrev main_call3_v1 : Ref sig .tc := ⟨.hbm, 202, rfl⟩
abbrev main_v153 : Ref sig .tc := ⟨.hbm, 203, rfl⟩
abbrev main_c_29 : Ref sig .tc := ⟨.hbm, 204, rfl⟩
abbrev main_v154 : Ref sig .tc := ⟨.hbm, 205, rfl⟩
abbrev main_v155 : Ref sig .tc := ⟨.hbm, 206, rfl⟩
abbrev main_c_30 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_c_31 : Ref sig .tc := ⟨.hbm, 214, rfl⟩
abbrev main_v162 : Ref sig .tc := ⟨.hbm, 215, rfl⟩
abbrev main_v163 : Ref sig .tc := ⟨.hbm, 216, rfl⟩
abbrev main_c_32 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_c_33 : Ref sig .tc := ⟨.hbm, 224, rfl⟩
abbrev main_v170 : Ref sig .tc := ⟨.hbm, 225, rfl⟩
abbrev main_v171 : Ref sig .tc := ⟨.hbm, 226, rfl⟩
abbrev main_c_34 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_cst_35 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_cst_36 : Ref sig .tc := ⟨.hbm, 251, rfl⟩
abbrev main_v194 : Ref sig .tc := ⟨.hbm, 252, rfl⟩
abbrev main_v195 : Ref sig .tc := ⟨.hbm, 253, rfl⟩
abbrev main_cst_37 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_cst_38 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_cst_39 : Ref sig .tc := ⟨.hbm, 262, rfl⟩
abbrev main_call4_v0 : Ref sig .tc := ⟨.hbm, 263, rfl⟩
abbrev main_call4_v1 : Ref sig .tc := ⟨.hbm, 264, rfl⟩
abbrev main_v202 : Ref sig .tc := ⟨.hbm, 265, rfl⟩
abbrev main_c_40 : Ref sig .tc := ⟨.hbm, 266, rfl⟩
abbrev main_v203 : Ref sig .tc := ⟨.hbm, 267, rfl⟩
abbrev main_v204 : Ref sig .tc := ⟨.hbm, 268, rfl⟩
abbrev main_c_41 : Ref sig .tc := ⟨.hbm, 269, rfl⟩
abbrev main_v205 : Ref sig .tc := ⟨.hbm, 270, rfl⟩
abbrev main_v206 : Ref sig .tc := ⟨.hbm, 271, rfl⟩
abbrev main_v207 : Ref sig .tc := ⟨.hbm, 272, rfl⟩
abbrev main_v208 : Ref sig .tc := ⟨.hbm, 273, rfl⟩
abbrev main_v209 : Ref sig .tc := ⟨.hbm, 274, rfl⟩
abbrev main_v210 : Ref sig .tc := ⟨.hbm, 275, rfl⟩
abbrev main_c_42 : Ref sig .tc := ⟨.hbm, 276, rfl⟩
abbrev main_v211 : Ref sig .tc := ⟨.hbm, 277, rfl⟩
abbrev main_v212 : Ref sig .tc := ⟨.hbm, 278, rfl⟩
abbrev main_c_43 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_c_44 : Ref sig .tc := ⟨.hbm, 286, rfl⟩
abbrev main_v219 : Ref sig .tc := ⟨.hbm, 287, rfl⟩
abbrev main_v220 : Ref sig .tc := ⟨.hbm, 288, rfl⟩
abbrev main_c_45 : Ref sig .tc := ⟨.hbm, 289, rfl⟩
abbrev main_v221 : Ref sig .tc := ⟨.hbm, 290, rfl⟩
abbrev main_v222 : Ref sig .tc := ⟨.hbm, 291, rfl⟩
abbrev main_v223 : Ref sig .tc := ⟨.hbm, 292, rfl⟩
abbrev main_v224 : Ref sig .tc := ⟨.hbm, 293, rfl⟩
abbrev main_v225 : Ref sig .tc := ⟨.hbm, 294, rfl⟩
abbrev main_v226 : Ref sig .tc := ⟨.hbm, 295, rfl⟩
abbrev main_v227 : Ref sig .tc := ⟨.hbm, 296, rfl⟩
abbrev main_v228 : Ref sig .tc := ⟨.hbm, 297, rfl⟩
abbrev main_cst_46 : Ref sig .tc := ⟨.hbm, 298, rfl⟩
abbrev main_v229 : Ref sig .tc := ⟨.hbm, 299, rfl⟩
abbrev main_v230 : Ref sig .tc := ⟨.hbm, 300, rfl⟩
abbrev main_v231 : Ref sig .tc := ⟨.hbm, 301, rfl⟩
abbrev main_v232 : Ref sig .tc := ⟨.hbm, 302, rfl⟩
abbrev main_v233 : Ref sig .tc := ⟨.hbm, 303, rfl⟩
abbrev main_v234 : Ref sig .tc := ⟨.hbm, 304, rfl⟩
abbrev main_v235 : Ref sig .tc := ⟨.hbm, 305, rfl⟩
abbrev main_v236 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_cst_47 : Ref sig .tc := ⟨.hbm, 310, rfl⟩
abbrev main_v240 : Ref sig .tc := ⟨.hbm, 311, rfl⟩
abbrev main_cst_48 : Ref sig .tc := ⟨.hbm, 312, rfl⟩
abbrev main_v241 : Ref sig .tc := ⟨.hbm, 313, rfl⟩
abbrev main_v242 : Ref sig .tc := ⟨.hbm, 314, rfl⟩
abbrev main_v243 : Ref sig .tc := ⟨.hbm, 315, rfl⟩
abbrev main_v244 : Ref sig .tc := ⟨.hbm, 316, rfl⟩
abbrev main_v245 : Ref sig .tc := ⟨.hbm, 317, rfl⟩
abbrev main_v246 : Ref sig .tc := ⟨.hbm, 318, rfl⟩
abbrev main_cst_49 : Ref sig .tc := ⟨.hbm, 319, rfl⟩
abbrev main_v247 : Ref sig .tc := ⟨.hbm, 320, rfl⟩
abbrev main_cst_50 : Ref sig .tc := ⟨.hbm, 321, rfl⟩
abbrev main_v248 : Ref sig .tc := ⟨.hbm, 322, rfl⟩
abbrev main_v249 : Ref sig .tc := ⟨.hbm, 323, rfl⟩
abbrev main_v250 : Ref sig .tc := ⟨.hbm, 324, rfl⟩
abbrev main_v251 : Ref sig .tc := ⟨.hbm, 325, rfl⟩
abbrev main_v252 : Ref sig .tc := ⟨.hbm, 326, rfl⟩
abbrev main_cst_51 : Ref sig .tc := ⟨.hbm, 327, rfl⟩
abbrev main_v253 : Ref sig .tc := ⟨.hbm, 328, rfl⟩
abbrev main_v254 : Ref sig .tc := ⟨.hbm, 329, rfl⟩
abbrev main_v255 : Ref sig .tc := ⟨.hbm, 330, rfl⟩
abbrev main_v256 : Ref sig .tc := ⟨.hbm, 331, rfl⟩
abbrev main_v257 : Ref sig .tc := ⟨.hbm, 332, rfl⟩
abbrev main_v258 : Ref sig .tc := ⟨.hbm, 333, rfl⟩
abbrev main_v259 : Ref sig .tc := ⟨.hbm, 334, rfl⟩
abbrev main_v260 : Ref sig .tc := ⟨.hbm, 335, rfl⟩
abbrev main_v261 : Ref sig .tc := ⟨.hbm, 336, rfl⟩
abbrev main_v262 : Ref sig .tc := ⟨.hbm, 337, rfl⟩
abbrev main_v263 : Ref sig .tc := ⟨.hbm, 338, rfl⟩
abbrev main_v264 : Ref sig .tc := ⟨.hbm, 339, rfl⟩
abbrev main_call5_cst : Ref sig .tc := ⟨.hbm, 340, rfl⟩
abbrev main_call5_v0 : Ref sig .tc := ⟨.hbm, 341, rfl⟩
abbrev main_v265 : Ref sig .tc := ⟨.hbm, 342, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  concatenates_S640000_S50000_S690000_d0 : Shape.Concatenates [S640000, S50000] S690000 0
  bcast_S_S50000 : S_.BroadcastsInDim S50000 (![] : Fin 0 → Fin S50000.rank)
  bcast_S690000_S690000x1_0 : S690000.BroadcastsInDim S690000x1 (![0] : Fin 1 → Fin S690000x1.rank)
  bcast_S_S690000 : S_.BroadcastsInDim S690000 (![] : Fin 0 → Fin S690000.rank)
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  slices_S2x128x128_S1x128x128_1_0_0 : S2x128x128.Slices ![1, 0, 0] S1x128x128
  slices_S2x128_S1x128_1_0 : S2x128.Slices ![1, 0] S1x128
  dot_S50000x128_S128x128_S50000x128_1_0_0_1_n_n_wf : DotDims.WF S50000x128 S128x128 S50000x128 [1] [0] [0] [1] [] []
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf

class Facts : Prop extends Facts₀ where

variable [Facts]
-- ==== Proof.KHost.lean ====
/-
  The host operations of the kernel program that lie between its pallas_calls, read off ANY contents `X` a stretch is
  entered with. The kernel program and the reference apply the same operations around their linear layers and
  batch normalizations — the edge lists with self loops appended, the degrees by a scatter-add, their inverse square
  roots where positive, the gathered and weighted rows, the scatter-add of the messages, the column means and
  variances — so each stretch's results are the reference's stages (`val_main_vN`, one per reference operation, a
  function of the arguments) of the same arguments, as soon as the buffers the stretch reads hold the stages they
  correspond to. The one place where the two programs group a sum differently (the kernel adds the two branches and
  then the sum of the two biases, the reference adds each bias to its branch and then the branches) is carried as the
  hypothesis `Regroup`, which is a law of the extended reals and is proved where the float family is fixed.
  Everything here is stated at any float family: no operation is opened.
-/
import proofs.«401831_j46703474376899_2_alg».proof.Proof.Gen.KernelIdeal.Launch
import proofs.«401831_j46703474376899_2_alg».proof.Proof.RefReadP
import Idealize.ShloMosaic.Lib.StableHlo.Run

-- a stretch of some ninety operations is read in one pass
set_option maxHeartbeats 4000000

noncomputable section

namespace Cert.KernelIdeal.Host

open Idealize.ShloMosaic Idealize.ShloMosaic.TcCoe Idealize.SL.Sem Idealize.ShloMosaic.StableHlo
open Cert.KernelIdeal Cert.KernelIdeal.Gen
open Cert.ReferenceIdeal.ReadP

/-- The result rules applied by rewriting, for the places one simplifier pass does not reach (the operands of a
    concatenation). -/
macro "results_rw" : tactic =>
  `(tactic| repeat (first
       | rw [StableHlo.nullary_result] | rw [StableHlo.unary_result] | rw [StableHlo.binary_result] | rw [StableHlo.ternary_result]
       | rw [StableHlo.reshape_result]
       | (rw [StableHlo.nullary_result_ne]; rotate_left; decide)
       | (rw [StableHlo.unary_result_ne]; rotate_left; decide)
       | (rw [StableHlo.binary_result_ne]; rotate_left; decide)
       | (rw [StableHlo.ternary_result_ne]; rotate_left; decide)
       | (rw [StableHlo.reshape_result_ne]; rotate_left; decide)))

/-- A buffer's contents after a stretch, as the stretch's operations applied to the entry contents. -/
macro "read_stretch" : tactic => `(tactic| (after_results_simp; results_rw))

variable {F : FTy → Type} [FloatOps F]

/-- The eleven argument arrays, at the reference's shapes. -/
structure Args (F : FTy → Type) [FloatOps F] where
  a0 : (⟨Cert.ReferenceIdeal.S50000x128, .f32⟩ : BufTy).Contents (Elt F)
  a1 : (⟨Cert.ReferenceIdeal.S2x640000, .i32⟩ : BufTy).Contents (Elt F)
  a2 : (⟨Cert.ReferenceIdeal.S640000, .f32⟩ : BufTy).Contents (Elt F)
  a3 : (⟨Cert.ReferenceIdeal.S2x640000, .i32⟩ : BufTy).Contents (Elt F)
  a4 : (⟨Cert.ReferenceIdeal.S640000, .f32⟩ : BufTy).Contents (Elt F)
  a5 : (⟨Cert.ReferenceIdeal.S2x128x128, .f32⟩ : BufTy).Contents (Elt F)
  a6 : (⟨Cert.ReferenceIdeal.S2x128, .f32⟩ : BufTy).Contents (Elt F)
  a7 : (⟨Cert.ReferenceIdeal.S2x128x128, .f32⟩ : BufTy).Contents (Elt F)
  a8 : (⟨Cert.ReferenceIdeal.S2x128, .f32⟩ : BufTy).Contents (Elt F)
  a9 : (⟨Cert.ReferenceIdeal.S2x128, .f32⟩ : BufTy).Contents (Elt F)
  a10 : (⟨Cert.ReferenceIdeal.S2x128, .f32⟩ : BufTy).Contents (Elt F)

variable (X : Valuation τ sig (Elt F)) (A : Args F)

/-- What holds of the contents at every boundary after the first stretch: the argument arrays are the arguments, and
    the four edge-index rows (sources and targets of the two edge lists) are the reference's. Nothing after the first
    stretch writes any of these fifteen buffers. -/
structure Base : Prop where
  arg0 : X (Proc.devRef .tc main_arg0) = A.a0
  arg1 : X (Proc.devRef .tc main_arg1) = A.a1
  arg2 : X (Proc.devRef .tc main_arg2) = A.a2
  arg3 : X (Proc.devRef .tc main_arg3) = A.a3
  arg4 : X (Proc.devRef .tc main_arg4) = A.a4
  arg5 : X (Proc.devRef .tc main_arg5) = A.a5
  arg6 : X (Proc.devRef .tc main_arg6) = A.a6
  arg7 : X (Proc.devRef .tc main_arg7) = A.a7
  arg8 : X (Proc.devRef .tc main_arg8) = A.a8
  arg9 : X (Proc.devRef .tc main_arg9) = A.a9
  arg10 : X (Proc.devRef .tc main_arg10) = A.a10
  v1 : X (Proc.devRef .tc main_v1) = val_main_v1 (F := F) A.a1
  v3 : X (Proc.devRef .tc main_v3) = val_main_v3 (F := F) A.a1
  v5 : X (Proc.devRef .tc main_v5) = val_main_v5 (F := F) A.a3
  v7 : X (Proc.devRef .tc main_v7) = val_main_v7 (F := F) A.a3

/-- Closes a goal that is one of `Base`'s fields. -/
macro "base_field " h:term : tactic =>
  `(tactic| first
      | exact ($h).arg0
      | exact ($h).arg1
      | exact ($h).arg2
      | exact ($h).arg3
      | exact ($h).arg4
      | exact ($h).arg5
      | exact ($h).arg6
      | exact ($h).arg7
      | exact ($h).arg8
      | exact ($h).arg9
      | exact ($h).arg10
      | exact ($h).v1
      | exact ($h).v3
      | exact ($h).v5
      | exact ($h).v7)

/-- Rewrites the entry contents of `Base`'s buffers to the arguments and the reference's rows, wherever they occur. -/
macro "rw_base " h:term : tactic =>
  `(tactic| ((try rw [($h).arg0]); (try rw [($h).arg1]); (try rw [($h).arg2]); (try rw [($h).arg3]); (try rw [($h).arg4]); (try rw [($h).arg5]); (try rw [($h).arg6]); (try rw [($h).arg7]); (try rw [($h).arg8]); (try rw [($h).arg9]); (try rw [($h).arg10]); (try rw [($h).v1]); (try rw [($h).v3]); (try rw [($h).v5]); (try rw [($h).v7])))

/-- The kernel's grouping of the sum before a batch normalization equals the reference's: the two branches and the
    two biases (a length-128 row spread over the 50000 rows), regrouped branch by branch. -/
def Regroup (F : FTy → Type) [FloatOps F] : Prop :=
  ∀ (P Q : FVec F S50000x128 .f32) (b1 b2 : FVec F S128 .f32),
    addf (addf P Q) (broadcastInDim S50000x128 ![0, 1] bcast_S1x128_S50000x128_0_1 (broadcastInDim S1x128 ![1] bcast_S128_S1x128_1 (addf b1 b2)))
      = addf (addf P (broadcastInDim S50000x128 ![0, 1] bcast_S1x128_S50000x128_0_1 (broadcastInDim S1x128 ![1] bcast_S128_S1x128_1 b1)))
          (addf Q (broadcastInDim S50000x128 ![0, 1] bcast_S1x128_S50000x128_0_1 (broadcastInDim S1x128 ![1] bcast_S128_S1x128_1 b2)))

/-! ## Before the first linear layer: the edge-index rows and the first weight -/

/-- The first stretch establishes `Base` from the arguments. -/
theorem base0 (h0 : X (Proc.devRef .tc main_arg0) = A.a0) (h1 : X (Proc.devRef .tc main_arg1) = A.a1) (h2 : X (Proc.devRef .tc main_arg2) = A.a2) (h3 : X (Proc.devRef .tc main_arg3) = A.a3) (h4 : X (Proc.devRef .tc main_arg4) = A.a4) (h5 : X (Proc.devRef .tc main_arg5) = A.a5) (h6 : X (Proc.devRef .tc main_arg6) = A.a6) (h7 : X (Proc.devRef .tc main_arg7) = A.a7) (h8 : X (Proc.devRef .tc main_arg8) = A.a8) (h9 : X (Proc.devRef .tc main_arg9) = A.a9) (h10 : X (Proc.devRef .tc main_arg10) = A.a10) :
    Base (StableHlo.after hostOps0 X) A := by
  constructor <;> read_stretch <;> first
    | assumption
    | (rw [h1]; rfl)
    | (rw [h3]; rfl)

/-- The first layer's first weight matrix. -/
theorem w0_sc (h5 : X (Proc.devRef .tc main_arg5) = A.a5) :
    StableHlo.after hostOps0 X (Proc.devRef .tc main_v9) = val_main_v9 (F := F) A.a5 := by
  read_stretch; rw [h5]; rfl

/-! ## Between the first layer's two linear layers: the first branch aggregated, and the second weight -/

/-- The contents after the stretch (three lists: up to the call of `where`, its body, the rest). -/
abbrev after1 : Valuation τ sig (Elt F) := StableHlo.after hostOps1_2 (StableHlo.after hostOps1_1 (StableHlo.after hostOps1 X))

theorem base1 (hb : Base X A) : Base (after1 X) A := by
  constructor <;> read_stretch <;> base_field hb

/-- The first branch's aggregation of the first linear layer's output. -/
theorem agg0_sc (hb : Base X A) (hl : X (Proc.devRef .tc main_v10) = val_main_v12 (F := F) A.a0 A.a5) :
    after1 X (Proc.devRef .tc main_v51) = val_main_v53 (F := F) A.a0 A.a1 A.a2 A.a5 := by
  read_stretch; rw [hl]; rw_base hb; rfl

/-- The first layer's second weight matrix. -/
theorem w0_fc (hb : Base X A) : after1 X (Proc.devRef .tc main_v53) = val_main_v58 (F := F) A.a7 := by
  read_stretch; rw_base hb; rfl

/-! ## Before the first batch normalization: the second branch aggregated, the sum with the biases, its column
    statistics, and the scale and shift rows -/

abbrev after2 : Valuation τ sig (Elt F) := StableHlo.after hostOps2_2 (StableHlo.after hostOps2_1 (StableHlo.after hostOps2 X))

theorem base2 (hb : Base X A) : Base (after2 X) A := by
  constructor <;> read_stretch <;> base_field hb

section
variable (hb : Base X A) (hre : Regroup F)
  (hl : X (Proc.devRef .tc main_v54) = val_main_v61 (F := F) A.a0 A.a7)
  (hs : X (Proc.devRef .tc main_v51) = val_main_v53 (F := F) A.a0 A.a1 A.a2 A.a5)
include hb hre hl hs

/-- The array the first batch normalization reads: the reference's sum of its two convolutions. -/
theorem sum0 : after2 X (Proc.devRef .tc main_v104) = val_main_v106 (F := F) A.a0 A.a1 A.a2 A.a3 A.a4 A.a5 A.a6 A.a7 A.a8 := by
  read_stretch; rw [hl, hs]; rw_base hb; rw [hre]; rfl

/-- Its column means, as a [1,128] row. -/
theorem mean0 : after2 X (Proc.devRef .tc main_v122) = shapeCast S1x128 (val_main_v113 (F := F) A.a0 A.a1 A.a2 A.a3 A.a4 A.a5 A.a6 A.a7 A.a8) shapeCasts_S128_S1x128 := by
  read_stretch; rw [hl, hs]; rw_base hb; rw [hre]; rfl

/-- The inverse square roots of its column variances plus ε, as a [1,128] row. -/
theorem invstd0 : after2 X (Proc.devRef .tc main_v123) = shapeCast S1x128 (val_main_v126 (F := F) A.a0 A.a1 A.a2 A.a3 A.a4 A.a5 A.a6 A.a7 A.a8) shapeCasts_S128_S1x128 := by
  read_stretch; rw [hl, hs]; rw_base hb; rw [hre]; rfl
end

/-- The first layer's scale row. -/
theorem gamma0 (hb : Base X A) : after2 X (Proc.devRef .tc main_v124) = shapeCast S1x128 (val_main_v108 (F := F) A.a9) shapeCasts_S128_S1x128 := by
  read_stretch; rw_base hb; rfl

/-- The first layer's shift row. -/
theorem beta0 (hb : Base X A) : after2 X (Proc.devRef .tc main_v125) = shapeCast S1x128 (val_main_v110 (F := F) A.a10) shapeCasts_S128_S1x128 := by
  read_stretch; rw_base hb; rfl

/-! ## Before the second layer's first linear layer: its weight -/

theorem base3 (hb : Base X A) : Base (StableHlo.after hostOps3 X) A := by
  constructor <;> read_stretch <;> base_field hb

theorem w1_sc (hb : Base X A) : StableHlo.after hostOps3 X (Proc.devRef .tc main_v128) = val_main_v138 (F := F) A.a5 := by
  read_stretch; rw_base hb; rfl

/-- The first layer's output is not written by this stretch. -/
theorem keep3_h1 : StableHlo.after hostOps3 X (Proc.devRef .tc main_v126) = X (Proc.devRef .tc main_v126) := by read_stretch

/-! ## Between the second layer's two linear layers -/

abbrev after4 : Valuation τ sig (Elt F) := StableHlo.after hostOps4_2 (StableHlo.after hostOps4_1 (StableHlo.after hostOps4 X))

theorem base4 (hb : Base X A) : Base (after4 X) A := by
  constructor <;> read_stretch <;> base_field hb

theorem agg1_sc (hb : Base X A) (hl : X (Proc.devRef .tc main_v129) = val_main_v141 (F := F) A.a0 A.a1 A.a2 A.a3 A.a4 A.a5 A.a6 A.a7 A.a8 A.a9 A.a10) :
    after4 X (Proc.devRef .tc main_v170) = val_main_v182 (F := F) A.a0 A.a1 A.a2 A.a3 A.a4 A.a5 A.a6 A.a7 A.a8 A.a9 A.a10 := by
  read_stretch; rw [hl]; rw_base hb; rfl

theorem w1_fc (hb : Base X A) : after4 X (Proc.devRef .tc main_v172) = val_main_v187 (F := F) A.a7 := by
  read_stretch; rw_base hb; rfl

theorem keep4_h1 : after4 X (Proc.devRef .tc main_v126) = X (Proc.devRef .tc main_v126) := by read_stretch

/-! ## Before the second batch normalization -/

abbrev after5 : Valuation τ sig (Elt F) := StableHlo.after hostOps5_2 (StableHlo.after hostOps5_1 (StableHlo.after hostOps5 X))

section
variable (hb : Base X A) (hre : Regroup F)
  (hl : X (Proc.devRef .tc main_v173) = val_main_v190 (F := F) A.a0 A.a1 A.a2 A.a3 A.a4 A.a5 A.a6 A.a7 A.a8 A.a9 A.a10)
  (hs : X (Proc.devRef .tc main_v170) = val_main_v182 (F := F) A.a0 A.a1 A.a2 A.a3 A.a4 A.a5 A.a6 A.a7 A.a8 A.a9 A.a10)
include hb hre hl hs

theorem sum1 : after5 X (Proc.devRef .tc main_v223) = val_main_v235 (F := F) A.a0 A.a1 A.a2 A.a3 A.a4 A.a5 A.a6 A.a7 A.a8 A.a9 A.a10 := by
  read_stretch; rw [hl, hs]; rw_base hb; rw [hre]; rfl

theorem mean1 : after5 X (Proc.devRef .tc main_v241) = shapeCast S1x128 (val_main_v242 (F := F) A.a0 A.a1 A.a2 A.a3 A.a4 A.a5 A.a6 A.a7 A.a8 A.a9 A.a10) shapeCasts_S128_S1x128 := by
  read_stretch; rw [hl, hs]; rw_base hb; rw [hre]; rfl

theorem invstd1 : after5 X (Proc.devRef .tc main_v242) = shapeCast S1x128 (val_main_v255 (F := F) A.a0 A.a1 A.a2 A.a3 A.a4 A.a5 A.a6 A.a7 A.a8 A.a9 A.a10) shapeCasts_S128_S1x128 := by
  read_stretch; rw [hl, hs]; rw_base hb; rw [hre]; rfl
end

theorem gamma1 (hb : Base X A) : after5 X (Proc.devRef .tc main_v243) = shapeCast S1x128 (val_main_v237 (F := F) A.a9) shapeCasts_S128_S1x128 := by
  read_stretch; rw_base hb; rfl

theorem beta1 (hb : Base X A) : after5 X (Proc.devRef .tc main_v244) = shapeCast S1x128 (val_main_v239 (F := F) A.a10) shapeCasts_S128_S1x128 := by
  read_stretch; rw_base hb; rfl

end Cert.KernelIdeal.Host

end
-- ==== Proof.LinRegion0.lean ====
/- The value of the first linear layer's array: the [50000,128] operand times the [128,128] weight, entry by entry,
   from the ten row blocks the grid's points write back. Three steps: the block product at an index is the sum over the
   contraction coordinate; what a point writes back is its block of the whole product; the ten blocks cover the array. -/
import proofs.«401831_j46703474376899_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelIdeal.Lin0

open Cert.KernelIdeal Cert.KernelIdeal.Gen

/-! ## The product, entry by entry -/

/-- the left operand's entry: row of `i`, column `k` -/
abbrev li (i : S50000x128.Idx) (k : Fin 128) : S50000x128.Idx := fun a => match a with
  | ⟨0, _⟩ => ⟨(i 0).val, (i 0).isLt⟩
  | ⟨1, _⟩ => ⟨k.val, k.isLt⟩

/-- the right operand's entry: row `k`, column of `i` -/
abbrev ri (i : S50000x128.Idx) (k : Fin 128) : S128x128.Idx := fun a => match a with
  | ⟨0, _⟩ => ⟨k.val, k.isLt⟩
  | ⟨1, _⟩ => ⟨(i 1).val, (i 1).isLt⟩

/-- the [50000,128] × [128,128] product over the extended reals, entry by entry -/
def lin (a : S50000x128.Idx → EReal) (w : S128x128.Idx → EReal) : S50000x128.Idx → EReal :=
  fun i => ∑ k : Fin 128, a (li i k) * w (ri i k)

/-! ## The block product at an index

The contraction runs over the left operand's axis 1 and the right operand's axis 0; the other two axes carry the
output's coordinates. -/

/-- The left operand's row is the output's row. -/
theorem lhs_axis0 (j : S5000x128.Idx) (r : dot_S5000x128_S128x128_S5000x128_1_0_0_1_n_n.contr.Idx) :
    (dot_S5000x128_S128x128_S5000x128_1_0_0_1_n_n.lhsIdx j r 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The left operand's column is the contraction coordinate. -/
theorem lhs_axis1 (j : S5000x128.Idx) (r : dot_S5000x128_S128x128_S5000x128_1_0_0_1_n_n.contr.Idx) :
    (dot_S5000x128_S128x128_S5000x128_1_0_0_1_n_n.lhsIdx j r 1).val = (r ⟨0, by decide⟩).val :=
  dot_S5000x128_S128x128_S5000x128_1_0_0_1_n_n.lhsIdx_val_of_single rfl j r

/-- The right operand's row is the contraction coordinate. -/
theorem rhs_axis0 (j : S5000x128.Idx) (r : dot_S5000x128_S128x128_S5000x128_1_0_0_1_n_n.contr.Idx) :
    (dot_S5000x128_S128x128_S5000x128_1_0_0_1_n_n.rhsIdx j r 0).val = (r ⟨0, by decide⟩).val :=
  dot_S5000x128_S128x128_S5000x128_1_0_0_1_n_n.rhsIdx_val_of_single rfl j r

/-- The right operand's column is the output's column. -/
theorem rhs_axis1 (j : S5000x128.Idx) (r : dot_S5000x128_S128x128_S5000x128_1_0_0_1_n_n.contr.Idx) :
    (dot_S5000x128_S128x128_S5000x128_1_0_0_1_n_n.rhsIdx j r 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's stored value at row `p`, column `q` of the block: the two format changes are the identity on extended
    reals, the cast keeps the shape, and the product into the zero accumulator is the plain sum over the contraction
    coordinate. -/
theorem pay_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  simp only [matmul, shapeCast_self]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]
  rfl

/-! ## What a point writes back

Over variables first: a block product whose operands are read off two arrays `a` and `w` at the entries the whole
product wants is the whole product's entry. -/

/-- If the left block's row `p` is `a`'s row of `i` and the right block's column `q` is `w`'s column of `i`, the block
    product at `(p, q)` is the whole product at `i`. -/
theorem pay_of_entries (a : S50000x128.Idx → EReal) (w : S128x128.Idx → EReal)
    (x0 : Vec Ideal S5000x128 .f32) (x1 : Vec Ideal S128x128 .f32) (p : Fin 5000) (q : Fin 128) (i : S50000x128.Idx)
    (h0 : ∀ k : Fin 128, x0 (ix2 p k) = a (li i k)) (h1 : ∀ k : Fin 128, x1 (ix2 k q) = w (ri i k)) :
    k0_pay1 (F := Ideal) x0 x1 (ix2 p q) = lin a w i := by
  rw [pay_apply]
  unfold lin
  exact Finset.sum_congr rfl fun k _ => by rw [h0 k, h1 k]

theorem zeros2 : (![0, 0] : Fin 2 → Nat) = fun _ => 0 := funext fun a => by fin_cases a <;> rfl

/-- The index maps over the grid: the operand's block row is the output's, which is the point's number; every other
    block index is zero (the weight's block is the whole weight). -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Point `t` writes back block `t` of the whole product of the two arrays as the region finds them. -/
theorem flushed_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal) (lin (V c main_arg0) (V c main_v9)) := by
  show (cfg0.win 2).cut (grid0.coords t) ((dat0 (F := Ideal) V c).after 2 t) = _
  rw [after0_2]
  unfold out0_2
  rw [View.canon_unit_zero zeros2]
  simp only [View.ld_unit_zero (S := S5000x128) zeros2, View.ld_unit_zero (S := S128x128) zeros2]
  obtain ⟨e0, e1, e2, e3, e4, e5⟩ := block_indices t
  refine funext fun (j : S5000x128.Idx) => ?_
  obtain ⟨p, q, rfl⟩ : ∃ (p : Fin 5000) (q : Fin 128), j = ix2 p q := ⟨j 0, j 1, eq_ix2 j⟩
  refine pay_of_entries (V c main_arg0) (V c main_v9) (iblk0 V c 0 t) (iblk0 V c 1 t) p q
    (((cfg0.win 2).blk t).view.emb (ix2 p q)) (fun k => ?_) (fun k => ?_)
  · show V c main_arg0 (((cfg0.win 0).blk t).view.emb (ix2 p k)) = V c main_arg0 (li (((cfg0.win 2).blk t).view.emb (ix2 p q)) k)
    refine congrArg (V c main_arg0) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  · show V c main_v9 (((cfg0.win 1).blk t).view.emb (ix2 k q)) = V c main_v9 (ri (((cfg0.win 2).blk t).view.emb (ix2 p q)) k)
    refine congrArg (V c main_v9) (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega

/-! ## The ten blocks cover the array -/

/-- An entry is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v10).slice (win0_2.rect t)).set ↔ _
  rw [View.set_slice_whole, Rect.mem_set_unit]
  exact Iff.rfl

/-- Row `r` is in the block of point `r / 5000`. -/
theorem cover (i : S50000x128.Idx) : ∃ t : Fin cfg0.N, (cfg0.win 2).flush t = true ∧ i ∈ ((cfg0.win 2).blk t).view.set := by
  have hN : cfg0.N = 10 := N_0
  have hi0 : (i 0).val < 50000 := (i 0).isLt
  have hi1 : (i 1).val < 128 := (i 1).isLt
  have hlt : (i 0).val / 5000 < cfg0.N := by rw [hN]; omega
  refine ⟨⟨(i 0).val / 5000, hlt⟩, flush0_2 _, ?_⟩
  rw [mem_blk]
  obtain ⟨-, -, -, -, e4, e5⟩ := block_indices ⟨(i 0).val / 5000, hlt⟩
  have e4' : win0_2.index ⟨(i 0).val / 5000, hlt⟩ (0 : Fin 2) = (i 0).val / 5000 := e4
  intro a
  match a with
  | ⟨0, _⟩ => show win0_2.index _ (0 : Fin 2) * 5000 ≤ (i 0).val ∧ (i 0).val < win0_2.index _ (0 : Fin 2) * 5000 + 5000; omega
  | ⟨1, _⟩ => show win0_2.index _ (1 : Fin 2) * 128 ≤ (i 1).val ∧ (i 1).val < win0_2.index _ (1 : Fin 2) * 128 + 128; omega

/-- The array after the region: the whole product of the two arrays as the region finds them. -/
theorem final (V : (c : Dev nD) → (b : Ref sig .tc) → Buf (Elt Ideal) ((c : Thread nD τ).loc b)) (c : Dev nD) :
    (dat0 (F := Ideal) V c).arrAt 2 cfg0.N = lin (V c main_arg0) (V c main_v9) :=
  (dat0 (F := Ideal) V c).arrAt_eq_of_cover 2 (lin (V c main_arg0) (V c main_v9)) (fun t _ => flushed_eq V c t) cover

end Cert.KernelIdeal.Lin0

end
-- ==== Proof.BnRegion2.lean ====
/-
  The value of the third pallas_call of @main (the first batch-normalization kernel). Each of its ten grid points
  loads rows 5000 t … 5000 t + 4999 of a [50000,128] array and four [1,128] rows (mean, inverse standard deviation,
  scale, shift), and stores max((((h − mean) · invstd) · scale) + shift, 0), the rows broadcast over the block.
  Here: the stored block read entry by entry (`pay_apply`), what each point writes back as a block of one function of
  the whole arrays (`flushed_eq`), the blocks covering the array (`cover`), and so the array the region leaves
  (`final`), at any contents `V` the region is entered with and at any float semantics.
-/
import proofs.«401831_j46703474376899_2_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic

noncomputable section

namespace Cert.KernelIdeal.Bn2

open Idealize.ShloMosaic Idealize.ShloMosaic.TcCoe Idealize.SL.Sem
open Idealize.ShloMosaic.Pipeline (Dat)
open Idealize.ShloMosaic.ValueIdx
open Cert.KernelIdeal Cert.KernelIdeal.Gen

variable {F : FTy → Type} [FloatOps F]

/-- the one row of a [1,128] array that entry `i` of a [50000,128] array reads: its column -/
abbrev row (i : S50000x128.Idx) : S1x128.Idx := fun a => match a with | ⟨0, _⟩ => ⟨0, Nat.one_pos⟩ | ⟨1, _⟩ => ⟨(i 1).val, (i 1).isLt⟩

/-- batch normalization with given per-column statistics followed by the positive part, entry by entry -/
def bnrelu (x : S50000x128.Idx → Elt F .f32) (mu s g b : S1x128.Idx → Elt F .f32) : S50000x128.Idx → Elt F .f32 := fun i =>
  FloatOps.maximumf (FloatOps.addf (FloatOps.mulf (FloatOps.mulf (FloatOps.subf (x i) (mu (row i))) (s (row i))) (g (row i))) (b (row i))) (FloatOps.ofBits .f32 0x00000000#32)

/-- The stored block, entry by entry: the row entries are read at row 0 and the entry's own column. -/
theorem pay_apply (x0 : Vec F S5000x128 .f32) (x1 x2 x3 x4 : Vec F S1x128 .f32) (p : Fin 5000) (q : Fin 128) :
    k2_pay1 x0 x1 x2 x3 x4 (ix2 p q)
      = FloatOps.maximumf (FloatOps.addf (FloatOps.mulf (FloatOps.mulf (FloatOps.subf (x0 (ix2 p q)) (x1 (ix2 (0 : Fin 1) q))) (x2 (ix2 (0 : Fin 1) q))) (x3 (ix2 (0 : Fin 1) q))) (x4 (ix2 (0 : Fin 1) q))) (FloatOps.ofBits .f32 0x00000000#32) := by
  unfold k2_pay1
  simp only [shapeCast_self]
  show FloatOps.maximumf (FloatOps.addf (FloatOps.mulf (FloatOps.mulf (FloatOps.subf (x0 (ix2 p q))
      (broadcastTo S5000x128 x1 broadcasts_S1x128_S5000x128 (ix2 p q)))
      (broadcastTo S5000x128 x2 broadcasts_S1x128_S5000x128 (ix2 p q)))
      (broadcastTo S5000x128 x3 broadcasts_S1x128_S5000x128 (ix2 p q)))
      (broadcastTo S5000x128 x4 broadcasts_S1x128_S5000x128 (ix2 p q))) (FloatOps.ofBits .f32 0x00000000#32) = _
  rw [broadcastTo_1b_ab_apply x1, broadcastTo_1b_ab_apply x2, broadcastTo_1b_ab_apply x3, broadcastTo_1b_ab_apply x4]

/-- A stored block agrees with `bnrelu` of whole arrays at an array entry `i` as soon as the block's operands are
    the arrays' entries that `bnrelu` reads at `i`. -/
theorem pay_eq_bnrelu (a0 : S50000x128.Idx → Elt F .f32) (a1 a2 a3 a4 : S1x128.Idx → Elt F .f32)
    (x0 : Vec F S5000x128 .f32) (x1 x2 x3 x4 : Vec F S1x128 .f32) (p : Fin 5000) (q : Fin 128) (i : S50000x128.Idx)
    (h0 : x0 (ix2 p q) = a0 i) (h1 : x1 (ix2 (0 : Fin 1) q) = a1 (row i)) (h2 : x2 (ix2 (0 : Fin 1) q) = a2 (row i))
    (h3 : x3 (ix2 (0 : Fin 1) q) = a3 (row i)) (h4 : x4 (ix2 (0 : Fin 1) q) = a4 (row i)) :
    k2_pay1 x0 x1 x2 x3 x4 (ix2 p q) = bnrelu a0 a1 a2 a3 a4 i := by
  rw [pay_apply, h0, h1, h2, h3, h4]; rfl

variable (V : (c : Dev nD) → (b : Ref sig .tc) → Buf (Elt F) ((c : Thread nD τ).loc b))

theorem hz : (![0, 0] : Fin 2 → Nat) = fun _ => 0 := funext fun a => by fin_cases a <;> rfl

/-- The printed index maps, decided over the grid: the input block and the output block sit at the same block row,
    which is the point's number, and at block column 0; each row array is its one block. -/
theorem idx_facts : ∀ t : Fin cfg2.N, win2_0.index t (0 : Fin 2) = win2_5.index t (0 : Fin 2)
    ∧ win2_0.index t (1 : Fin 2) = 0 ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val :=
  (by decide +kernel : ∀ t : Fin grid2.N, _)

/-- What point `t` writes back is block `t` of `bnrelu` of the arrays as the region finds them: the input block sits
    where the output block does, and every row array is read whole, at the entry's column. -/
theorem flushed_eq (c : Dev nD) (t : Fin cfg2.N) :
    (dat2 V c).flushed 5 t = ((cfg2.win 5).blk t).view.read (Elt F)
      (bnrelu (V c main_v104) (V c main_v122) (V c main_v123) (V c main_v124) (V c main_v125)) := by
  show (cfg2.win 5).cut (grid2.coords t) ((dat2 V c).after 5 t) = _
  rw [after2_5]
  unfold out2_5
  rw [View.canon_unit_zero hz]
  simp only [View.ld_unit_zero (S := S5000x128) hz, View.ld_unit_zero (S := S1x128) hz]
  obtain ⟨e0, e1, e2, e3, e4, e5, e6, e7, e8, e9, e10, e11⟩ := idx_facts t
  refine funext fun (j : S5000x128.Idx) => ?_
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (iblk2 V c 3 t) (iblk2 V c 4 t) (ix2 p q)
    = bnrelu (V c main_v104) (V c main_v122) (V c main_v123) (V c main_v124) (V c main_v125) (((cfg2.win 5).blk t).view.emb (ix2 p q))
  refine pay_eq_bnrelu _ _ _ _ _ _ _ _ _ _ p q _ ?_ ?_ ?_ ?_ ?_
  · show V c main_v104 (((cfg2.win 0).blk t).view.emb (ix2 p q)) = V c main_v104 (((cfg2.win 5).blk t).view.emb (ix2 p q))
    refine congrArg (V c main_v104) (funext fun a => Fin.ext ?_)
    match a with
    | ⟨0, _⟩ => show win2_0.index t (0 : Fin 2) * 5000 + 1 * p.val = win2_5.index t (0 : Fin 2) * 5000 + 1 * p.val; omega
    | ⟨1, _⟩ => show win2_0.index t (1 : Fin 2) * 128 + 1 * q.val = win2_5.index t (1 : Fin 2) * 128 + 1 * q.val; omega
  · show V c main_v122 (((cfg2.win 1).blk t).view.emb (ix2 (0 : Fin 1) q)) = V c main_v122 (row (((cfg2.win 5).blk t).view.emb (ix2 p q)))
    refine congrArg (V c main_v122) (funext fun a => Fin.ext ?_)
    match a with
    | ⟨0, _⟩ => show win2_1.index t (0 : Fin 2) * 1 + 1 * 0 = 0; omega
    | ⟨1, _⟩ => show win2_1.index t (1 : Fin 2) * 128 + 1 * q.val = win2_5.index t (1 : Fin 2) * 128 + 1 * q.val; omega
  · show V c main_v123 (((cfg2.win 2).blk t).view.emb (ix2 (0 : Fin 1) q)) = V c main_v123 (row (((cfg2.win 5).blk t).view.emb (ix2 p q)))
    refine congrArg (V c main_v123) (funext fun a => Fin.ext ?_)
    match a with
    | ⟨0, _⟩ => show win2_2.index t (0 : Fin 2) * 1 + 1 * 0 = 0; omega
    | ⟨1, _⟩ => show win2_2.index t (1 : Fin 2) * 128 + 1 * q.val = win2_5.index t (1 : Fin 2) * 128 + 1 * q.val; omega
  · show V c main_v124 (((cfg2.win 3).blk t).view.emb (ix2 (0 : Fin 1) q)) = V c main_v124 (row (((cfg2.win 5).blk t).view.emb (ix2 p q)))
    refine congrArg (V c main_v124) (funext fun a => Fin.ext ?_)
    match a with
    | ⟨0, _⟩ => show win2_3.index t (0 : Fin 2) * 1 + 1 * 0 = 0; omega
    | ⟨1, _⟩ => show win2_3.index t (1 : Fin 2) * 128 + 1 * q.val = win2_5.index t (1 : Fin 2) * 128 + 1 * q.val; omega
  · show V c main_v125 (((cfg2.win 4).blk t).view.emb (ix2 (0 : Fin 1) q)) = V c main_v125 (row (((cfg2.win 5).blk t).view.emb (ix2 p q)))
    refine congrArg (V c main_v125) (funext fun a => Fin.ext ?_)
    match a with
    | ⟨0, _⟩ => show win2_4.index t (0 : Fin 2) * 1 + 1 * 0 = 0; omega
    | ⟨1, _⟩ => show win2_4.index t (1 : Fin 2) * 128 + 1 * q.val = win2_5.index t (1 : Fin 2) * 128 + 1 * q.val; omega

/-- An entry of the array is in point `t`'s output block iff each coordinate is in the block's range on its axis. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v126).slice (win2_5.rect t)).set ↔ _
  rw [View.set_slice_whole, Rect.mem_set_unit]
  exact Iff.rfl

/-- Every entry of the array is written back by some point: row `r` by point `r / 5000`. -/
theorem cover (i : S50000x128.Idx) :
    ∃ t : Fin cfg2.N, (cfg2.win 5).flush t = true ∧ i ∈ ((cfg2.win 5).blk t).view.set := by
  have hi0 : (i 0).val < 50000 := idx2_lt0 i
  have hi1 : (i 1).val < 128 := idx2_lt1 i
  have hN : cfg2.N = 10 := N_2
  have ht : (i 0).val / 5000 < cfg2.N := by rw [hN]; omega
  obtain ⟨-, -, e2, -, -, -, -, -, -, -, -, e11⟩ := idx_facts ⟨(i 0).val / 5000, ht⟩
  have e11' : win2_5.index ⟨(i 0).val / 5000, ht⟩ (0 : Fin 2) = (i 0).val / 5000 := e11
  refine ⟨⟨(i 0).val / 5000, ht⟩, flush2_5 _, ?_⟩
  rw [mem_blk]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    omega
  | ⟨1, _⟩ =>
    show win2_5.index ⟨(i 0).val / 5000, ht⟩ (1 : Fin 2) * 128 ≤ (i 1).val
      ∧ (i 1).val < win2_5.index ⟨(i 0).val / 5000, ht⟩ (1 : Fin 2) * 128 + 128
    omega

/-- The array the region leaves: `bnrelu` of the arrays as the region finds them, entry by entry. -/
theorem final (c : Dev nD) :
    (dat2 (F := F) V c).arrAt 5 cfg2.N = bnrelu (V c main_v104) (V c main_v122) (V c main_v123) (V c main_v124) (V c main_v125) :=
  (dat2 V c).arrAt_eq_of_cover 5 (bnrelu (V c main_v104) (V c main_v122) (V c main_v123) (V c main_v124) (V c main_v125))
    (fun t _ => flushed_eq V c t) cover

end Cert.KernelIdeal.Bn2

end
-- ==== Proof.Bridges.lean ====
/-
  The three places where the kernel program and the reference compute the same numbers by different means.
  (1) A linear layer: the kernel's ten row blocks of matrix-unit products, whose array is the rows-times-columns sum
      `lin`, against the host's `dot_general` of the same two arrays — at the ideal instance both are that sum.
  (2) The sum before a batch normalization: branches first and then the summed biases, against each bias on its own
      branch — addition on the extended reals is commutative and associative, and nothing is cancelled, so infinite
      entries are no exception and the finiteness of the inputs is not used.
  (3) A batch normalization with the positive part: the kernel's blocks read the four statistics as [1,128] rows
      (the length-128 vectors recast), the reference spreads the same vectors over the 50000 rows and applies the
      same five operations; entry by entry the two are one expression.
-/
import proofs.«401831_j46703474376899_2_alg».proof.Proof.LinRegion0
import proofs.«401831_j46703474376899_2_alg».proof.Proof.BnRegion2
import proofs.«401831_j46703474376899_2_alg».proof.Proof.KHost
import Idealize.ShloMosaic.Lib.ValueIdx
import Idealize.ShloMosaic.Lib.Pipeline.Value
import Idealize.ShloMosaic.PureOps.Ideal.Laws

noncomputable section

namespace Cert.KernelIdeal.Bridge

open Idealize.ShloMosaic Idealize.ShloMosaic.TcCoe Idealize.SL.Sem
open Cert.KernelIdeal Cert.KernelIdeal.Gen
open Cert.ReferenceIdeal.ReadP
open Cert.KernelIdeal.Lin0 (li ri lin)
open Cert.KernelIdeal.Bn2 (row bnrelu)

/-! ## (1) A linear layer -/

/-- The rows-times-columns sum is the host's `dot_general` of the same two arrays at the ideal instance: both are
    the sum over the contraction coordinate of the left operand's row entry times the right operand's column entry. -/
theorem lin_eq_dot (a : FVec Ideal Cert.ReferenceIdeal.S50000x128 .f32) (w : FVec Ideal Cert.ReferenceIdeal.S128x128 .f32) :
    lin a w = Host.dotGeneral (F := Ideal) Cert.ReferenceIdeal.dot_S50000x128_S128x128_S50000x128_1_0_0_1_n_n none a w := by
  funext i
  simp only [Host.dotGeneral]
  rw [Ideal.dotGeneral_apply, ← Equiv.sum_comp (ValueIdx.contrEquiv1 Cert.ReferenceIdeal.dot_S50000x128_S128x128_S50000x128_1_0_0_1_n_n 128 rfl rfl).symm]
  unfold lin
  refine Finset.sum_congr rfl fun k _ => ?_
  have hk := ValueIdx.contrEquiv1_symm_val Cert.ReferenceIdeal.dot_S50000x128_S128x128_S50000x128_1_0_0_1_n_n 128 rfl rfl k
  have el : Cert.ReferenceIdeal.dot_S50000x128_S128x128_S50000x128_1_0_0_1_n_n.lhsIdx i ((ValueIdx.contrEquiv1 Cert.ReferenceIdeal.dot_S50000x128_S128x128_S50000x128_1_0_0_1_n_n 128 rfl rfl).symm k) = li i k := funext fun a => Fin.ext (by
    match a with
    | ⟨0, _⟩ => exact lhs_main_v12_0 _ _
    | ⟨1, _⟩ => exact (lhs_main_v12_1 _ _).trans hk)
  have er : Cert.ReferenceIdeal.dot_S50000x128_S128x128_S50000x128_1_0_0_1_n_n.rhsIdx i ((ValueIdx.contrEquiv1 Cert.ReferenceIdeal.dot_S50000x128_S128x128_S50000x128_1_0_0_1_n_n 128 rfl rfl).symm k) = ri i k := funext fun a => Fin.ext (by
    match a with
    | ⟨0, _⟩ => exact (rhs_main_v12_0 _ _).trans hk
    | ⟨1, _⟩ => exact rhs_main_v12_1 _ _)
  rw [el, er]

/-! ## A length-128 vector spread over the 50000 rows, and recast as a [1,128] row, read at an entry -/

variable {F : FTy → Type} [FloatOps F]

/-- the column of entry `i`, as an index of a length-128 vector -/
abbrev col (i : S50000x128.Idx) : S128.Idx := fun a => match a with | ⟨0, _⟩ => ⟨(i 1).val, (i 1).isLt⟩

/-- Spread over the rows (first to a [1,128] row, then over the 50000 rows), a vector is read at the entry's column. -/
theorem spread_apply (y : FVec F S128 .f32) (i : S50000x128.Idx) :
    broadcastInDim S50000x128 ![0, 1] bcast_S1x128_S50000x128_0_1 (broadcastInDim S1x128 ![1] bcast_S128_S1x128_1 y) i = y (col i) := by
  rw [broadcastInDim_apply _ bcast_S1x128_S50000x128_0_1 _ i (row i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])]
  exact broadcastInDim_apply _ bcast_S128_S1x128_1 y (row i) (col i) (fun a => match a with
    | ⟨0, _⟩ => by show (i 1).val = if (128 : Nat) = 1 then 0 else (i 1).val; rw [if_neg (by decide)])

/-- Recast as a [1,128] row, a vector is read at the entry's column too. -/
theorem recast_apply (y : FVec F S128 .f32) (i : S50000x128.Idx) :
    shapeCast S1x128 y shapeCasts_S128_S1x128 (row i) = y (col i) :=
  shapeCast_apply y shapeCasts_S128_S1x128 (row i) (col i)
    (by rewrite [Shape.rowMajor_val_two, Shape.rowMajor_val_one]; show (i 1).val = 0 * 128 + (i 1).val; omega)

/-! ## (2) The sum before a batch normalization -/

/-- The branches and the summed biases, regrouped branch by branch. -/
theorem regroup : Cert.KernelIdeal.Host.Regroup Ideal := by
  intro P Q b1 b2
  funext i
  show FloatOps.addf (FloatOps.addf (P i) (Q i)) _ = FloatOps.addf (FloatOps.addf (P i) _) (FloatOps.addf (Q i) _)
  rw [spread_apply, spread_apply, spread_apply]
  show (P i + Q i) + (b1 (col i) + b2 (col i)) = (P i + b1 (col i)) + (Q i + b2 (col i))
  exact add_add_add_comm _ _ _ _

/-! ## (3) A batch normalization with the positive part -/

/-- The kernel's entry-by-entry function at the four vectors recast as rows is the reference's chain: subtract the
    spread mean, multiply by the spread inverse standard deviation and by the spread scale, add the spread shift, and
    take the maximum with zero. -/
theorem bn_eq (h : FVec F S50000x128 .f32) (mu s g b : FVec F S128 .f32) :
    bnrelu h (shapeCast S1x128 mu shapeCasts_S128_S1x128) (shapeCast S1x128 s shapeCasts_S128_S1x128)
        (shapeCast S1x128 g shapeCasts_S128_S1x128) (shapeCast S1x128 b shapeCasts_S128_S1x128)
      = maximumf (addf (mulf (mulf (subf h (broadcastInDim S50000x128 ![0, 1] bcast_S1x128_S50000x128_0_1 (broadcastInDim S1x128 ![1] bcast_S128_S1x128_1 mu)))
            (broadcastInDim S50000x128 ![0, 1] bcast_S1x128_S50000x128_0_1 (broadcastInDim S1x128 ![1] bcast_S128_S1x128_1 s)))
            (broadcastInDim S50000x128 ![0, 1] bcast_S1x128_S50000x128_0_1 (broadcastInDim S1x128 ![1] bcast_S128_S1x128_1 g)))
            (broadcastInDim S50000x128 ![0, 1] bcast_S1x128_S50000x128_0_1 (broadcastInDim S1x128 ![1] bcast_S128_S1x128_1 b)))
          (broadcastInDim S50000x128 ![] bcast_S_S50000x128 (constant (F := F) S_ .f32 0x00000000#32)) := by
  funext i
  show _ = FloatOps.maximumf (FloatOps.addf (FloatOps.mulf (FloatOps.mulf (FloatOps.subf (h i) _) _) _) _) _
  rw [spread_apply, spread_apply, spread_apply, spread_apply]
  unfold bnrelu
  rw [recast_apply, recast_apply, recast_apply, recast_apply]
  rfl

end Cert.KernelIdeal.Bridge

end
-- ==== Proof.LinRegion1.lean ====
import proofs.«401831_j46703474376899_2_alg».proof.Proof.Gen.KernelIdeal.Frame
import proofs.«401831_j46703474376899_2_alg».proof.Proof.LinRegion0
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelIdeal.Lin1

open Cert.KernelIdeal Cert.KernelIdeal.Gen

open Cert.KernelIdeal.Lin0 (li ri lin)

/-! ## The block product at an index

The contraction runs over the left operand's axis 1 and the right operand's axis 0; the other two axes carry the
output's coordinates. -/

/-- The left operand's row is the output's row. -/
theorem lhs_axis0 (j : S5000x128.Idx) (r : dot_S5000x128_S128x128_S5000x128_1_0_0_1_n_n.contr.Idx) :
    (dot_S5000x128_S128x128_S5000x128_1_0_0_1_n_n.lhsIdx j r 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The left operand's column is the contraction coordinate. -/
theorem lhs_axis1 (j : S5000x128.Idx) (r : dot_S5000x128_S128x128_S5000x128_1_0_0_1_n_n.contr.Idx) :
    (dot_S5000x128_S128x128_S5000x128_1_0_0_1_n_n.lhsIdx j r 1).val = (r ⟨0, by decide⟩).val :=
  dot_S5000x128_S128x128_S5000x128_1_0_0_1_n_n.lhsIdx_val_of_single rfl j r

/-- The right operand's row is the contraction coordinate. -/
theorem rhs_axis0 (j : S5000x128.Idx) (r : dot_S5000x128_S128x128_S5000x128_1_0_0_1_n_n.contr.Idx) :
    (dot_S5000x128_S128x128_S5000x128_1_0_0_1_n_n.rhsIdx j r 0).val = (r ⟨0, by decide⟩).val :=
  dot_S5000x128_S128x128_S5000x128_1_0_0_1_n_n.rhsIdx_val_of_single rfl j r

/-- The right operand's column is the output's column. -/
theorem rhs_axis1 (j : S5000x128.Idx) (r : dot_S5000x128_S128x128_S5000x128_1_0_0_1_n_n.contr.Idx) :
    (dot_S5000x128_S128x128_S5000x128_1_0_0_1_n_n.rhsIdx j r 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's stored value at row `p`, column `q` of the block: the two format changes are the identity on extended
    reals, the cast keeps the shape, and the product into the zero accumulator is the plain sum over the contraction
    coordinate. -/
theorem pay_apply (x0 : Vec Ideal S5000x128 .f32) (x1 : Vec Ideal S128x128 .f32) (p : Fin 5000) (q : Fin 128) :
    k1_pay1 (F := Ideal) x0 x1 (ix2 p q) = ∑ k : Fin 128, x0 (ix2 p k) * x1 (ix2 k q) := by
  unfold k1_pay1
  simp only [matmul, shapeCast_self]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]
  rfl

/-! ## What a point writes back

Over variables first: a block product whose operands are read off two arrays `a` and `w` at the entries the whole
product wants is the whole product's entry. -/

/-- If the left block's row `p` is `a`'s row of `i` and the right block's column `q` is `w`'s column of `i`, the block
    product at `(p, q)` is the whole product at `i`. -/
theorem pay_of_entries (a : S50000x128.Idx → EReal) (w : S128x128.Idx → EReal)
    (x0 : Vec Ideal S5000x128 .f32) (x1 : Vec Ideal S128x128 .f32) (p : Fin 5000) (q : Fin 128) (i : S50000x128.Idx)
    (h0 : ∀ k : Fin 128, x0 (ix2 p k) = a (li i k)) (h1 : ∀ k : Fin 128, x1 (ix2 k q) = w (ri i k)) :
    k1_pay1 (F := Ideal) x0 x1 (ix2 p q) = lin a w i := by
  rw [pay_apply]
  unfold lin
  exact Finset.sum_congr rfl fun k _ => by rw [h0 k, h1 k]

theorem zeros2 : (![0, 0] : Fin 2 → Nat) = fun _ => 0 := funext fun a => by fin_cases a <;> rfl

/-- The index maps over the grid: the operand's block row is the output's, which is the point's number; every other
    block index is zero (the weight's block is the whole weight). -/
theorem block_indices : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- Point `t` writes back block `t` of the whole product of the two arrays as the region finds them. -/
theorem flushed_eq (V : (c : Dev nD) → (b : Ref sig .tc) → Buf (Elt Ideal) ((c : Thread nD τ).loc b)) (c : Dev nD) (t : Fin cfg1.N) :
    (dat1 (F := Ideal) V c).flushed 2 t = ((cfg1.win 2).blk t).view.read (Elt Ideal) (lin (V c main_arg0) (V c main_v53)) := by
  show (cfg1.win 2).cut (grid1.coords t) ((dat1 (F := Ideal) V c).after 2 t) = _
  rw [after1_2]
  unfold out1_2
  rw [View.canon_unit_zero zeros2]
  simp only [View.ld_unit_zero (S := S5000x128) zeros2, View.ld_unit_zero (S := S128x128) zeros2]
  obtain ⟨e0, e1, e2, e3, e4, e5⟩ := block_indices t
  refine funext fun (j : S5000x128.Idx) => ?_
  obtain ⟨p, q, rfl⟩ : ∃ (p : Fin 5000) (q : Fin 128), j = ix2 p q := ⟨j 0, j 1, eq_ix2 j⟩
  refine pay_of_entries (V c main_arg0) (V c main_v53) (iblk1 V c 0 t) (iblk1 V c 1 t) p q
    (((cfg1.win 2).blk t).view.emb (ix2 p q)) (fun k => ?_) (fun k => ?_)
  · show V c main_arg0 (((cfg1.win 0).blk t).view.emb (ix2 p k)) = V c main_arg0 (li (((cfg1.win 2).blk t).view.emb (ix2 p q)) k)
    refine congrArg (V c main_arg0) (funext fun a => Fin.ext ?_)
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * k.val = k.val; omega
  · show V c main_v53 (((cfg1.win 1).blk t).view.emb (ix2 k q)) = V c main_v53 (ri (((cfg1.win 2).blk t).view.emb (ix2 p q)) k)
    refine congrArg (V c main_v53) (funext fun a => Fin.ext ?_)
    match a with
    | ⟨0, _⟩ => show win1_1.index t (0 : Fin 2) * 128 + 1 * k.val = k.val; omega
    | ⟨1, _⟩ => show win1_1.index t (1 : Fin 2) * 128 + 1 * q.val = win1_2.index t (1 : Fin 2) * 128 + 1 * q.val; omega

/-! ## The ten blocks cover the array -/

/-- An entry is in point `t`'s block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v54).slice (win1_2.rect t)).set ↔ _
  rw [View.set_slice_whole, Rect.mem_set_unit]
  exact Iff.rfl

/-- Row `r` is in the block of point `r / 5000`. -/
theorem cover (i : S50000x128.Idx) : ∃ t : Fin cfg1.N, (cfg1.win 2).flush t = true ∧ i ∈ ((cfg1.win 2).blk t).view.set := by
  have hN : cfg1.N = 10 := N_1
  have hi0 : (i 0).val < 50000 := (i 0).isLt
  have hi1 : (i 1).val < 128 := (i 1).isLt
  have hlt : (i 0).val / 5000 < cfg1.N := by rw [hN]; omega
  refine ⟨⟨(i 0).val / 5000, hlt⟩, flush1_2 _, ?_⟩
  rw [mem_blk]
  obtain ⟨-, -, -, -, e4, e5⟩ := block_indices ⟨(i 0).val / 5000, hlt⟩
  have e4' : win1_2.index ⟨(i 0).val / 5000, hlt⟩ (0 : Fin 2) = (i 0).val / 5000 := e4
  intro a
  match a with
  | ⟨0, _⟩ => show win1_2.index _ (0 : Fin 2) * 5000 ≤ (i 0).val ∧ (i 0).val < win1_2.index _ (0 : Fin 2) * 5000 + 5000; omega
  | ⟨1, _⟩ => show win1_2.index _ (1 : Fin 2) * 128 ≤ (i 1).val ∧ (i 1).val < win1_2.index _ (1 : Fin 2) * 128 + 128; omega

/-- The array after the region: the whole product of the two arrays as the region finds them. -/
theorem final (V : (c : Dev nD) → (b : Ref sig .tc) → Buf (Elt Ideal) ((c : Thread nD τ).loc b)) (c : Dev nD) :
    (dat1 (F := Ideal) V c).arrAt 2 cfg1.N = lin (V c main_arg0) (V c main_v53) :=
  (dat1 (F := Ideal) V c).arrAt_eq_of_cover 2 (lin (V c main_arg0) (V c main_v53)) (fun t _ => flushed_eq V c t) cover

end Cert.KernelIdeal.Lin1

end
-- ==== Proof.LinRegion3.lean ====
import proofs.«401831_j46703474376899_2_alg».proof.Proof.Gen.KernelIdeal.Frame
import proofs.«401831_j46703474376899_2_alg».proof.Proof.LinRegion0
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelIdeal.Lin3

open Cert.KernelIdeal Cert.KernelIdeal.Gen

open Cert.KernelIdeal.Lin0 (li ri lin)

/-! ## The block product at an index

The contraction runs over the left operand's axis 1 and the right operand's axis 0; the other two axes carry the
output's coordinates. -/

/-- The left operand's row is the output's row. -/
theorem lhs_axis0 (j : S5000x128.Idx) (r : dot_S5000x128_S128x128_S5000x128_1_0_0_1_n_n.contr.Idx) :
    (dot_S5000x128_S128x128_S5000x128_1_0_0_1_n_n.lhsIdx j r 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The left operand's column is the contraction coordinate. -/
theorem lhs_axis1 (j : S5000x128.Idx) (r : dot_S5000x128_S128x128_S5000x128_1_0_0_1_n_n.contr.Idx) :
    (dot_S5000x128_S128x128_S5000x128_1_0_0_1_n_n.lhsIdx j r 1).val = (r ⟨0, by decide⟩).val :=
  dot_S5000x128_S128x128_S5000x128_1_0_0_1_n_n.lhsIdx_val_of_single rfl j r

/-- The right operand's row is the contraction coordinate. -/
theorem rhs_axis0 (j : S5000x128.Idx) (r : dot_S5000x128_S128x128_S5000x128_1_0_0_1_n_n.contr.Idx) :
    (dot_S5000x128_S128x128_S5000x128_1_0_0_1_n_n.rhsIdx j r 0).val = (r ⟨0, by decide⟩).val :=
  dot_S5000x128_S128x128_S5000x128_1_0_0_1_n_n.rhsIdx_val_of_single rfl j r

/-- The right operand's column is the output's column. -/
theorem rhs_axis1 (j : S5000x128.Idx) (r : dot_S5000x128_S128x128_S5000x128_1_0_0_1_n_n.contr.Idx) :
    (dot_S5000x128_S128x128_S5000x128_1_0_0_1_n_n.rhsIdx j r 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's stored value at row `p`, column `q` of the block: the two format changes are the identity on extended
    reals, the cast keeps the shape, and the product into the zero accumulator is the plain sum over the contraction
    coordinate. -/
theorem pay_apply (x0 : Vec Ideal S5000x128 .f32) (x1 : Vec Ideal S128x128 .f32) (p : Fin 5000) (q : Fin 128) :
    k3_pay1 (F := Ideal) x0 x1 (ix2 p q) = ∑ k : Fin 128, x0 (ix2 p k) * x1 (ix2 k q) := by
  unfold k3_pay1
  simp only [matmul, shapeCast_self]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]
  rfl

/-! ## What a point writes back

Over variables first: a block product whose operands are read off two arrays `a` and `w` at the entries the whole
product wants is the whole product's entry. -/

/-- If the left block's row `p` is `a`'s row of `i` and the right block's column `q` is `w`'s column of `i`, the block
    product at `(p, q)` is the whole product at `i`. -/
theorem pay_of_entries (a : S50000x128.Idx → EReal) (w : S128x128.Idx → EReal)
    (x0 : Vec Ideal S5000x128 .f32) (x1 : Vec Ideal S128x128 .f32) (p : Fin 5000) (q : Fin 128) (i : S50000x128.Idx)
    (h0 : ∀ k : Fin 128, x0 (ix2 p k) = a (li i k)) (h1 : ∀ k : Fin 128, x1 (ix2 k q) = w (ri i k)) :
    k3_pay1 (F := Ideal) x0 x1 (ix2 p q) = lin a w i := by
  rw [pay_apply]
  unfold lin
  exact Finset.sum_congr rfl fun k _ => by rw [h0 k, h1 k]

theorem zeros2 : (![0, 0] : Fin 2 → Nat) = fun _ => 0 := funext fun a => by fin_cases a <;> rfl

/-- The index maps over the grid: the operand's block row is the output's, which is the point's number; every other
    block index is zero (the weight's block is the whole weight). -/
theorem block_indices : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- Point `t` writes back block `t` of the whole product of the two arrays as the region finds them. -/
theorem flushed_eq (V : (c : Dev nD) → (b : Ref sig .tc) → Buf (Elt Ideal) ((c : Thread nD τ).loc b)) (c : Dev nD) (t : Fin cfg3.N) :
    (dat3 (F := Ideal) V c).flushed 2 t = ((cfg3.win 2).blk t).view.read (Elt Ideal) (lin (V c main_v126) (V c main_v128)) := by
  show (cfg3.win 2).cut (grid3.coords t) ((dat3 (F := Ideal) V c).after 2 t) = _
  rw [after3_2]
  unfold out3_2
  rw [View.canon_unit_zero zeros2]
  simp only [View.ld_unit_zero (S := S5000x128) zeros2, View.ld_unit_zero (S := S128x128) zeros2]
  obtain ⟨e0, e1, e2, e3, e4, e5⟩ := block_indices t
  refine funext fun (j : S5000x128.Idx) => ?_
  obtain ⟨p, q, rfl⟩ : ∃ (p : Fin 5000) (q : Fin 128), j = ix2 p q := ⟨j 0, j 1, eq_ix2 j⟩
  refine pay_of_entries (V c main_v126) (V c main_v128) (iblk3 V c 0 t) (iblk3 V c 1 t) p q
    (((cfg3.win 2).blk t).view.emb (ix2 p q)) (fun k => ?_) (fun k => ?_)
  · show V c main_v126 (((cfg3.win 0).blk t).view.emb (ix2 p k)) = V c main_v126 (li (((cfg3.win 2).blk t).view.emb (ix2 p q)) k)
    refine congrArg (V c main_v126) (funext fun a => Fin.ext ?_)
    match a with
    | ⟨0, _⟩ => show win3_0.index t (0 : Fin 2) * 5000 + 1 * p.val = win3_2.index t (0 : Fin 2) * 5000 + 1 * p.val; omega
    | ⟨1, _⟩ => show win3_0.index t (1 : Fin 2) * 128 + 1 * k.val = k.val; omega
  · show V c main_v128 (((cfg3.win 1).blk t).view.emb (ix2 k q)) = V c main_v128 (ri (((cfg3.win 2).blk t).view.emb (ix2 p q)) k)
    refine congrArg (V c main_v128) (funext fun a => Fin.ext ?_)
    match a with
    | ⟨0, _⟩ => show win3_1.index t (0 : Fin 2) * 128 + 1 * k.val = k.val; omega
    | ⟨1, _⟩ => show win3_1.index t (1 : Fin 2) * 128 + 1 * q.val = win3_2.index t (1 : Fin 2) * 128 + 1 * q.val; omega

/-! ## The ten blocks cover the array -/

/-- An entry is in point `t`'s block iff each coordinate is in the block's range on its axis. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v129).slice (win3_2.rect t)).set ↔ _
  rw [View.set_slice_whole, Rect.mem_set_unit]
  exact Iff.rfl

/-- Row `r` is in the block of point `r / 5000`. -/
theorem cover (i : S50000x128.Idx) : ∃ t : Fin cfg3.N, (cfg3.win 2).flush t = true ∧ i ∈ ((cfg3.win 2).blk t).view.set := by
  have hN : cfg3.N = 10 := N_3
  have hi0 : (i 0).val < 50000 := (i 0).isLt
  have hi1 : (i 1).val < 128 := (i 1).isLt
  have hlt : (i 0).val / 5000 < cfg3.N := by rw [hN]; omega
  refine ⟨⟨(i 0).val / 5000, hlt⟩, flush3_2 _, ?_⟩
  rw [mem_blk]
  obtain ⟨-, -, -, -, e4, e5⟩ := block_indices ⟨(i 0).val / 5000, hlt⟩
  have e4' : win3_2.index ⟨(i 0).val / 5000, hlt⟩ (0 : Fin 2) = (i 0).val / 5000 := e4
  intro a
  match a with
  | ⟨0, _⟩ => show win3_2.index _ (0 : Fin 2) * 5000 ≤ (i 0).val ∧ (i 0).val < win3_2.index _ (0 : Fin 2) * 5000 + 5000; omega
  | ⟨1, _⟩ => show win3_2.index _ (1 : Fin 2) * 128 ≤ (i 1).val ∧ (i 1).val < win3_2.index _ (1 : Fin 2) * 128 + 128; omega

/-- The array after the region: the whole product of the two arrays as the region finds them. -/
theorem final (V : (c : Dev nD) → (b : Ref sig .tc) → Buf (Elt Ideal) ((c : Thread nD τ).loc b)) (c : Dev nD) :
    (dat3 (F := Ideal) V c).arrAt 2 cfg3.N = lin (V c main_v126) (V c main_v128) :=
  (dat3 (F := Ideal) V c).arrAt_eq_of_cover 2 (lin (V c main_v126) (V c main_v128)) (fun t _ => flushed_eq V c t) cover

end Cert.KernelIdeal.Lin3

end
-- ==== Proof.LinRegion4.lean ====
import proofs.«401831_j46703474376899_2_alg».proof.Proof.Gen.KernelIdeal.Frame
import proofs.«401831_j46703474376899_2_alg».proof.Proof.LinRegion0
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelIdeal.Lin4

open Cert.KernelIdeal Cert.KernelIdeal.Gen

open Cert.KernelIdeal.Lin0 (li ri lin)

/-! ## The block product at an index

The contraction runs over the left operand's axis 1 and the right operand's axis 0; the other two axes carry the
output's coordinates. -/

/-- The left operand's row is the output's row. -/
theorem lhs_axis0 (j : S5000x128.Idx) (r : dot_S5000x128_S128x128_S5000x128_1_0_0_1_n_n.contr.Idx) :
    (dot_S5000x128_S128x128_S5000x128_1_0_0_1_n_n.lhsIdx j r 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The left operand's column is the contraction coordinate. -/
theorem lhs_axis1 (j : S5000x128.Idx) (r : dot_S5000x128_S128x128_S5000x128_1_0_0_1_n_n.contr.Idx) :
    (dot_S5000x128_S128x128_S5000x128_1_0_0_1_n_n.lhsIdx j r 1).val = (r ⟨0, by decide⟩).val :=
  dot_S5000x128_S128x128_S5000x128_1_0_0_1_n_n.lhsIdx_val_of_single rfl j r

/-- The right operand's row is the contraction coordinate. -/
theorem rhs_axis0 (j : S5000x128.Idx) (r : dot_S5000x128_S128x128_S5000x128_1_0_0_1_n_n.contr.Idx) :
    (dot_S5000x128_S128x128_S5000x128_1_0_0_1_n_n.rhsIdx j r 0).val = (r ⟨0, by decide⟩).val :=
  dot_S5000x128_S128x128_S5000x128_1_0_0_1_n_n.rhsIdx_val_of_single rfl j r

/-- The right operand's column is the output's column. -/
theorem rhs_axis1 (j : S5000x128.Idx) (r : dot_S5000x128_S128x128_S5000x128_1_0_0_1_n_n.contr.Idx) :
    (dot_S5000x128_S128x128_S5000x128_1_0_0_1_n_n.rhsIdx j r 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's stored value at row `p`, column `q` of the block: the two format changes are the identity on extended
    reals, the cast keeps the shape, and the product into the zero accumulator is the plain sum over the contraction
    coordinate. -/
theorem pay_apply (x0 : Vec Ideal S5000x128 .f32) (x1 : Vec Ideal S128x128 .f32) (p : Fin 5000) (q : Fin 128) :
    k4_pay1 (F := Ideal) x0 x1 (ix2 p q) = ∑ k : Fin 128, x0 (ix2 p k) * x1 (ix2 k q) := by
  unfold k4_pay1
  simp only [matmul, shapeCast_self]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]
  rfl

/-! ## What a point writes back

Over variables first: a block product whose operands are read off two arrays `a` and `w` at the entries the whole
product wants is the whole product's entry. -/

/-- If the left block's row `p` is `a`'s row of `i` and the right block's column `q` is `w`'s column of `i`, the block
    product at `(p, q)` is the whole product at `i`. -/
theorem pay_of_entries (a : S50000x128.Idx → EReal) (w : S128x128.Idx → EReal)
    (x0 : Vec Ideal S5000x128 .f32) (x1 : Vec Ideal S128x128 .f32) (p : Fin 5000) (q : Fin 128) (i : S50000x128.Idx)
    (h0 : ∀ k : Fin 128, x0 (ix2 p k) = a (li i k)) (h1 : ∀ k : Fin 128, x1 (ix2 k q) = w (ri i k)) :
    k4_pay1 (F := Ideal) x0 x1 (ix2 p q) = lin a w i := by
  rw [pay_apply]
  unfold lin
  exact Finset.sum_congr rfl fun k _ => by rw [h0 k, h1 k]

theorem zeros2 : (![0, 0] : Fin 2 → Nat) = fun _ => 0 := funext fun a => by fin_cases a <;> rfl

/-- The index maps over the grid: the operand's block row is the output's, which is the point's number; every other
    block index is zero (the weight's block is the whole weight). -/
theorem block_indices : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- Point `t` writes back block `t` of the whole product of the two arrays as the region finds them. -/
theorem flushed_eq (V : (c : Dev nD) → (b : Ref sig .tc) → Buf (Elt Ideal) ((c : Thread nD τ).loc b)) (c : Dev nD) (t : Fin cfg4.N) :
    (dat4 (F := Ideal) V c).flushed 2 t = ((cfg4.win 2).blk t).view.read (Elt Ideal) (lin (V c main_v126) (V c main_v172)) := by
  show (cfg4.win 2).cut (grid4.coords t) ((dat4 (F := Ideal) V c).after 2 t) = _
  rw [after4_2]
  unfold out4_2
  rw [View.canon_unit_zero zeros2]
  simp only [View.ld_unit_zero (S := S5000x128) zeros2, View.ld_unit_zero (S := S128x128) zeros2]
  obtain ⟨e0, e1, e2, e3, e4, e5⟩ := block_indices t
  refine funext fun (j : S5000x128.Idx) => ?_
  obtain ⟨p, q, rfl⟩ : ∃ (p : Fin 5000) (q : Fin 128), j = ix2 p q := ⟨j 0, j 1, eq_ix2 j⟩
  refine pay_of_entries (V c main_v126) (V c main_v172) (iblk4 V c 0 t) (iblk4 V c 1 t) p q
    (((cfg4.win 2).blk t).view.emb (ix2 p q)) (fun k => ?_) (fun k => ?_)
  · show V c main_v126 (((cfg4.win 0).blk t).view.emb (ix2 p k)) = V c main_v126 (li (((cfg4.win 2).blk t).view.emb (ix2 p q)) k)
    refine congrArg (V c main_v126) (funext fun a => Fin.ext ?_)
    match a with
    | ⟨0, _⟩ => show win4_0.index t (0 : Fin 2) * 5000 + 1 * p.val = win4_2.index t (0 : Fin 2) * 5000 + 1 * p.val; omega
    | ⟨1, _⟩ => show win4_0.index t (1 : Fin 2) * 128 + 1 * k.val = k.val; omega
  · show V c main_v172 (((cfg4.win 1).blk t).view.emb (ix2 k q)) = V c main_v172 (ri (((cfg4.win 2).blk t).view.emb (ix2 p q)) k)
    refine congrArg (V c main_v172) (funext fun a => Fin.ext ?_)
    match a with
    | ⟨0, _⟩ => show win4_1.index t (0 : Fin 2) * 128 + 1 * k.val = k.val; omega
    | ⟨1, _⟩ => show win4_1.index t (1 : Fin 2) * 128 + 1 * q.val = win4_2.index t (1 : Fin 2) * 128 + 1 * q.val; omega

/-! ## The ten blocks cover the array -/

/-- An entry is in point `t`'s block iff each coordinate is in the block's range on its axis. -/
theorem mem_blk (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v173).slice (win4_2.rect t)).set ↔ _
  rw [View.set_slice_whole, Rect.mem_set_unit]
  exact Iff.rfl

/-- Row `r` is in the block of point `r / 5000`. -/
theorem cover (i : S50000x128.Idx) : ∃ t : Fin cfg4.N, (cfg4.win 2).flush t = true ∧ i ∈ ((cfg4.win 2).blk t).view.set := by
  have hN : cfg4.N = 10 := N_4
  have hi0 : (i 0).val < 50000 := (i 0).isLt
  have hi1 : (i 1).val < 128 := (i 1).isLt
  have hlt : (i 0).val / 5000 < cfg4.N := by rw [hN]; omega
  refine ⟨⟨(i 0).val / 5000, hlt⟩, flush4_2 _, ?_⟩
  rw [mem_blk]
  obtain ⟨-, -, -, -, e4, e5⟩ := block_indices ⟨(i 0).val / 5000, hlt⟩
  have e4' : win4_2.index ⟨(i 0).val / 5000, hlt⟩ (0 : Fin 2) = (i 0).val / 5000 := e4
  intro a
  match a with
  | ⟨0, _⟩ => show win4_2.index _ (0 : Fin 2) * 5000 ≤ (i 0).val ∧ (i 0).val < win4_2.index _ (0 : Fin 2) * 5000 + 5000; omega
  | ⟨1, _⟩ => show win4_2.index _ (1 : Fin 2) * 128 ≤ (i 1).val ∧ (i 1).val < win4_2.index _ (1 : Fin 2) * 128 + 128; omega

/-- The array after the region: the whole product of the two arrays as the region finds them. -/
theorem final (V : (c : Dev nD) → (b : Ref sig .tc) → Buf (Elt Ideal) ((c : Thread nD τ).loc b)) (c : Dev nD) :
    (dat4 (F := Ideal) V c).arrAt 2 cfg4.N = lin (V c main_v126) (V c main_v172) :=
  (dat4 (F := Ideal) V c).arrAt_eq_of_cover 2 (lin (V c main_v126) (V c main_v172)) (fun t _ => flushed_eq V c t) cover

end Cert.KernelIdeal.Lin4

end
-- ==== Proof.BnRegion5.lean ====
import proofs.«401831_j46703474376899_2_alg».proof.Proof.Gen.KernelIdeal.Frame
import proofs.«401831_j46703474376899_2_alg».proof.Proof.BnRegion2
import Idealize.ShloMosaic.Lib.Pipeline.Value
import Idealize.ShloMosaic.Lib.ValueIdx
import Idealize.ShloMosaic.Lib.ValueLayout
import Idealize.ShloMosaic.Lib.Tactic

noncomputable section

namespace Cert.KernelIdeal.Bn5

open Idealize.ShloMosaic Idealize.ShloMosaic.TcCoe Idealize.SL.Sem
open Idealize.ShloMosaic.Pipeline (Dat)
open Idealize.ShloMosaic.ValueIdx
open Cert.KernelIdeal Cert.KernelIdeal.Gen

variable {F : FTy → Type} [FloatOps F]

open Cert.KernelIdeal.Bn2 (row bnrelu)

/-- The stored block, entry by entry: the row entries are read at row 0 and the entry's own column. -/
theorem pay_apply (x0 : Vec F S5000x128 .f32) (x1 x2 x3 x4 : Vec F S1x128 .f32) (p : Fin 5000) (q : Fin 128) :
    k5_pay1 x0 x1 x2 x3 x4 (ix2 p q)
      = FloatOps.maximumf (FloatOps.addf (FloatOps.mulf (FloatOps.mulf (FloatOps.subf (x0 (ix2 p q)) (x1 (ix2 (0 : Fin 1) q))) (x2 (ix2 (0 : Fin 1) q))) (x3 (ix2 (0 : Fin 1) q))) (x4 (ix2 (0 : Fin 1) q))) (FloatOps.ofBits .f32 0x00000000#32) := by
  unfold k5_pay1
  simp only [shapeCast_self]
  show FloatOps.maximumf (FloatOps.addf (FloatOps.mulf (FloatOps.mulf (FloatOps.subf (x0 (ix2 p q))
      (broadcastTo S5000x128 x1 broadcasts_S1x128_S5000x128 (ix2 p q)))
      (broadcastTo S5000x128 x2 broadcasts_S1x128_S5000x128 (ix2 p q)))
      (broadcastTo S5000x128 x3 broadcasts_S1x128_S5000x128 (ix2 p q)))
      (broadcastTo S5000x128 x4 broadcasts_S1x128_S5000x128 (ix2 p q))) (FloatOps.ofBits .f32 0x00000000#32) = _
  rw [broadcastTo_1b_ab_apply x1, broadcastTo_1b_ab_apply x2, broadcastTo_1b_ab_apply x3, broadcastTo_1b_ab_apply x4]

/-- A stored block agrees with `bnrelu` of whole arrays at an array entry `i` as soon as the block's operands are
    the arrays' entries that `bnrelu` reads at `i`. -/
theorem pay_eq_bnrelu (a0 : S50000x128.Idx → Elt F .f32) (a1 a2 a3 a4 : S1x128.Idx → Elt F .f32)
    (x0 : Vec F S5000x128 .f32) (x1 x2 x3 x4 : Vec F S1x128 .f32) (p : Fin 5000) (q : Fin 128) (i : S50000x128.Idx)
    (h0 : x0 (ix2 p q) = a0 i) (h1 : x1 (ix2 (0 : Fin 1) q) = a1 (row i)) (h2 : x2 (ix2 (0 : Fin 1) q) = a2 (row i))
    (h3 : x3 (ix2 (0 : Fin 1) q) = a3 (row i)) (h4 : x4 (ix2 (0 : Fin 1) q) = a4 (row i)) :
    k5_pay1 x0 x1 x2 x3 x4 (ix2 p q) = bnrelu a0 a1 a2 a3 a4 i := by
  rw [pay_apply, h0, h1, h2, h3, h4]; rfl

variable (V : (c : Dev nD) → (b : Ref sig .tc) → Buf (Elt F) ((c : Thread nD τ).loc b))

theorem hz : (![0, 0] : Fin 2 → Nat) = fun _ => 0 := funext fun a => by fin_cases a <;> rfl

/-- The printed index maps, decided over the grid: the input block and the output block sit at the same block row,
    which is the point's number, and at block column 0; each row array is its one block. -/
theorem idx_facts : ∀ t : Fin cfg5.N, win5_0.index t (0 : Fin 2) = win5_5.index t (0 : Fin 2)
    ∧ win5_0.index t (1 : Fin 2) = 0 ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val :=
  (by decide +kernel : ∀ t : Fin grid5.N, _)

/-- What point `t` writes back is block `t` of `bnrelu` of the arrays as the region finds them: the input block sits
    where the output block does, and every row array is read whole, at the entry's column. -/
theorem flushed_eq (c : Dev nD) (t : Fin cfg5.N) :
    (dat5 V c).flushed 5 t = ((cfg5.win 5).blk t).view.read (Elt F)
      (bnrelu (V c main_v223) (V c main_v241) (V c main_v242) (V c main_v243) (V c main_v244)) := by
  show (cfg5.win 5).cut (grid5.coords t) ((dat5 V c).after 5 t) = _
  rw [after5_5]
  unfold out5_5
  rw [View.canon_unit_zero hz]
  simp only [View.ld_unit_zero (S := S5000x128) hz, View.ld_unit_zero (S := S1x128) hz]
  obtain ⟨e0, e1, e2, e3, e4, e5, e6, e7, e8, e9, e10, e11⟩ := idx_facts t
  refine funext fun (j : S5000x128.Idx) => ?_
  obtain ⟨p, q, rfl⟩ : ∃ (p : Fin 5000) (q : Fin 128), j = ix2 p q := ⟨j 0, j 1, eq_ix2 j⟩
  show k5_pay1 (iblk5 V c 0 t) (iblk5 V c 1 t) (iblk5 V c 2 t) (iblk5 V c 3 t) (iblk5 V c 4 t) (ix2 p q)
    = bnrelu (V c main_v223) (V c main_v241) (V c main_v242) (V c main_v243) (V c main_v244) (((cfg5.win 5).blk t).view.emb (ix2 p q))
  refine pay_eq_bnrelu _ _ _ _ _ _ _ _ _ _ p q _ ?_ ?_ ?_ ?_ ?_
  · show V c main_v223 (((cfg5.win 0).blk t).view.emb (ix2 p q)) = V c main_v223 (((cfg5.win 5).blk t).view.emb (ix2 p q))
    refine congrArg (V c main_v223) (funext fun a => Fin.ext ?_)
    match a with
    | ⟨0, _⟩ => show win5_0.index t (0 : Fin 2) * 5000 + 1 * p.val = win5_5.index t (0 : Fin 2) * 5000 + 1 * p.val; omega
    | ⟨1, _⟩ => show win5_0.index t (1 : Fin 2) * 128 + 1 * q.val = win5_5.index t (1 : Fin 2) * 128 + 1 * q.val; omega
  · show V c main_v241 (((cfg5.win 1).blk t).view.emb (ix2 (0 : Fin 1) q)) = V c main_v241 (row (((cfg5.win 5).blk t).view.emb (ix2 p q)))
    refine congrArg (V c main_v241) (funext fun a => Fin.ext ?_)
    match a with
    | ⟨0, _⟩ => show win5_1.index t (0 : Fin 2) * 1 + 1 * 0 = 0; omega
    | ⟨1, _⟩ => show win5_1.index t (1 : Fin 2) * 128 + 1 * q.val = win5_5.index t (1 : Fin 2) * 128 + 1 * q.val; omega
  · show V c main_v242 (((cfg5.win 2).blk t).view.emb (ix2 (0 : Fin 1) q)) = V c main_v242 (row (((cfg5.win 5).blk t).view.emb (ix2 p q)))
    refine congrArg (V c main_v242) (funext fun a => Fin.ext ?_)
    match a with
    | ⟨0, _⟩ => show win5_2.index t (0 : Fin 2) * 1 + 1 * 0 = 0; omega
    | ⟨1, _⟩ => show win5_2.index t (1 : Fin 2) * 128 + 1 * q.val = win5_5.index t (1 : Fin 2) * 128 + 1 * q.val; omega
  · show V c main_v243 (((cfg5.win 3).blk t).view.emb (ix2 (0 : Fin 1) q)) = V c main_v243 (row (((cfg5.win 5).blk t).view.emb (ix2 p q)))
    refine congrArg (V c main_v243) (funext fun a => Fin.ext ?_)
    match a with
    | ⟨0, _⟩ => show win5_3.index t (0 : Fin 2) * 1 + 1 * 0 = 0; omega
    | ⟨1, _⟩ => show win5_3.index t (1 : Fin 2) * 128 + 1 * q.val = win5_5.index t (1 : Fin 2) * 128 + 1 * q.val; omega
  · show V c main_v244 (((cfg5.win 4).blk t).view.emb (ix2 (0 : Fin 1) q)) = V c main_v244 (row (((cfg5.win 5).blk t).view.emb (ix2 p q)))
    refine congrArg (V c main_v244) (funext fun a => Fin.ext ?_)
    match a with
    | ⟨0, _⟩ => show win5_4.index t (0 : Fin 2) * 1 + 1 * 0 = 0; omega
    | ⟨1, _⟩ => show win5_4.index t (1 : Fin 2) * 128 + 1 * q.val = win5_5.index t (1 : Fin 2) * 128 + 1 * q.val; omega

/-- An entry of the array is in point `t`'s output block iff each coordinate is in the block's range on its axis. -/
theorem mem_blk (t : Fin cfg5.N) (i : S50000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v245).slice (win5_5.rect t)).set ↔ _
  rw [View.set_slice_whole, Rect.mem_set_unit]
  exact Iff.rfl

/-- Every entry of the array is written back by some point: row `r` by point `r / 5000`. -/
theorem cover (i : S50000x128.Idx) :
    ∃ t : Fin cfg5.N, (cfg5.win 5).flush t = true ∧ i ∈ ((cfg5.win 5).blk t).view.set := by
  have hi0 : (i 0).val < 50000 := idx2_lt0 i
  have hi1 : (i 1).val < 128 := idx2_lt1 i
  have hN : cfg5.N = 10 := N_5
  have ht : (i 0).val / 5000 < cfg5.N := by rw [hN]; omega
  obtain ⟨-, -, e2, -, -, -, -, -, -, -, -, e11⟩ := idx_facts ⟨(i 0).val / 5000, ht⟩
  have e11' : win5_5.index ⟨(i 0).val / 5000, ht⟩ (0 : Fin 2) = (i 0).val / 5000 := e11
  refine ⟨⟨(i 0).val / 5000, ht⟩, flush5_5 _, ?_⟩
  rw [mem_blk]
  intro a
  match a with
  | ⟨0, _⟩ =>
    show win5_5.index ⟨(i 0).val / 5000, ht⟩ (0 : Fin 2) * 5000 ≤ (i 0).val
      ∧ (i 0).val < win5_5.index ⟨(i 0).val / 5000, ht⟩ (0 : Fin 2) * 5000 + 5000
    omega
  | ⟨1, _⟩ =>
    show win5_5.index ⟨(i 0).val / 5000, ht⟩ (1 : Fin 2) * 128 ≤ (i 1).val
      ∧ (i 1).val < win5_5.index ⟨(i 0).val / 5000, ht⟩ (1 : Fin 2) * 128 + 128
    omega

/-- The array the region leaves: `bnrelu` of the arrays as the region finds them, entry by entry. -/
theorem final (c : Dev nD) :
    (dat5 (F := F) V c).arrAt 5 cfg5.N = bnrelu (V c main_v223) (V c main_v241) (V c main_v242) (V c main_v243) (V c main_v244) :=
  (dat5 V c).arrAt_eq_of_cover 5 (bnrelu (V c main_v223) (V c main_v241) (V c main_v242) (V c main_v243) (V c main_v244))
    (fun t _ => flushed_eq V c t) cover

end Cert.KernelIdeal.Bn5

end
-- ==== Proof.KWalk.lean ====
/-
  The kernel program's buffer contents, boundary by boundary, from the launch to the result, at the ideal instance:
  after each stretch of host operations and after each pallas_call, the buffers that later items read hold the
  reference's stages of the launch arguments. A host stretch carries the facts across by the reference's own
  operations (the module of the host stretches); a linear layer's region leaves the rows-times-columns sum of its two
  arrays, which is the reference's `dot_general`; a batch-normalization region leaves the entry-by-entry function that
  is the reference's chain of five operations and the positive part. The last boundary's result buffer is therefore
  the reference's result stage of the arguments.
-/
import proofs.«401831_j46703474376899_2_alg».proof.Proof.Gen.KernelIdeal.Frame
import proofs.«401831_j46703474376899_2_alg».proof.Proof.KHost
import proofs.«401831_j46703474376899_2_alg».proof.Proof.Bridges
import proofs.«401831_j46703474376899_2_alg».proof.Proof.LinRegion0
import proofs.«401831_j46703474376899_2_alg».proof.Proof.LinRegion1
import proofs.«401831_j46703474376899_2_alg».proof.Proof.LinRegion3
import proofs.«401831_j46703474376899_2_alg».proof.Proof.LinRegion4
import proofs.«401831_j46703474376899_2_alg».proof.Proof.BnRegion2
import proofs.«401831_j46703474376899_2_alg».proof.Proof.BnRegion5

noncomputable section

namespace Cert.KernelIdeal.Walk

open Idealize.ShloMosaic Idealize.ShloMosaic.TcCoe Idealize.SL.Sem Idealize.ShloMosaic.StableHlo
open Cert.KernelIdeal Cert.KernelIdeal.Gen
open Cert.ReferenceIdeal.ReadP
open Cert.KernelIdeal.Host (Args Base)
open Cert.KernelIdeal.Lin0 (lin)
open Cert.KernelIdeal.Bn2 (bnrelu)

/-! ## The reference's stages that stand where the kernel program has a region, opened one level

At any float family: a linear layer's stage is the host's `dot_general` of the two stages before it, and a batch
normalization's last stage is the chain of five operations and the maximum with zero over the stages before it. -/

section Stages
variable {F : FTy → Type} [FloatOps F] (A : Args F)

theorem lin0_sc_stage : val_main_v12 (F := F) A.a0 A.a5
    = Host.dotGeneral Cert.ReferenceIdeal.dot_S50000x128_S128x128_S50000x128_1_0_0_1_n_n none A.a0 (val_main_v9 (F := F) A.a5) := rfl
theorem lin0_fc_stage : val_main_v61 (F := F) A.a0 A.a7
    = Host.dotGeneral Cert.ReferenceIdeal.dot_S50000x128_S128x128_S50000x128_1_0_0_1_n_n none A.a0 (val_main_v58 (F := F) A.a7) := rfl
theorem lin1_sc_stage : val_main_v141 (F := F) A.a0 A.a1 A.a2 A.a3 A.a4 A.a5 A.a6 A.a7 A.a8 A.a9 A.a10
    = Host.dotGeneral Cert.ReferenceIdeal.dot_S50000x128_S128x128_S50000x128_1_0_0_1_n_n none (val_main_v136 (F := F) A.a0 A.a1 A.a2 A.a3 A.a4 A.a5 A.a6 A.a7 A.a8 A.a9 A.a10) (val_main_v138 (F := F) A.a5) := rfl
theorem lin1_fc_stage : val_main_v190 (F := F) A.a0 A.a1 A.a2 A.a3 A.a4 A.a5 A.a6 A.a7 A.a8 A.a9 A.a10
    = Host.dotGeneral Cert.ReferenceIdeal.dot_S50000x128_S128x128_S50000x128_1_0_0_1_n_n none (val_main_v136 (F := F) A.a0 A.a1 A.a2 A.a3 A.a4 A.a5 A.a6 A.a7 A.a8 A.a9 A.a10) (val_main_v187 (F := F) A.a7) := rfl

theorem bn0_stage : val_main_v136 (F := F) A.a0 A.a1 A.a2 A.a3 A.a4 A.a5 A.a6 A.a7 A.a8 A.a9 A.a10
    = maximumf (addf (mulf (mulf (subf (val_main_v106 (F := F) A.a0 A.a1 A.a2 A.a3 A.a4 A.a5 A.a6 A.a7 A.a8) (broadcastInDim S50000x128 ![0, 1] bcast_S1x128_S50000x128_0_1 (broadcastInDim S1x128 ![1] bcast_S128_S1x128_1 (val_main_v113 (F := F) A.a0 A.a1 A.a2 A.a3 A.a4 A.a5 A.a6 A.a7 A.a8))))
          (broadcastInDim S50000x128 ![0, 1] bcast_S1x128_S50000x128_0_1 (broadcastInDim S1x128 ![1] bcast_S128_S1x128_1 (val_main_v126 (F := F) A.a0 A.a1 A.a2 A.a3 A.a4 A.a5 A.a6 A.a7 A.a8)))) (broadcastInDim S50000x128 ![0, 1] bcast_S1x128_S50000x128_0_1 (broadcastInDim S1x128 ![1] bcast_S128_S1x128_1 (val_main_v108 (F := F) A.a9)))) (broadcastInDim S50000x128 ![0, 1] bcast_S1x128_S50000x128_0_1 (broadcastInDim S1x128 ![1] bcast_S128_S1x128_1 (val_main_v110 (F := F) A.a10))))
        (broadcastInDim S50000x128 ![] bcast_S_S50000x128 (constant (F := F) S_ .f32 0x00000000#32)) := rfl
theorem bn1_stage : val_main_v265 (F := F) A.a0 A.a1 A.a2 A.a3 A.a4 A.a5 A.a6 A.a7 A.a8 A.a9 A.a10
    = maximumf (addf (mulf (mulf (subf (val_main_v235 (F := F) A.a0 A.a1 A.a2 A.a3 A.a4 A.a5 A.a6 A.a7 A.a8 A.a9 A.a10) (broadcastInDim S50000x128 ![0, 1] bcast_S1x128_S50000x128_0_1 (broadcastInDim S1x128 ![1] bcast_S128_S1x128_1 (val_main_v242 (F := F) A.a0 A.a1 A.a2 A.a3 A.a4 A.a5 A.a6 A.a7 A.a8 A.a9 A.a10))))
          (broadcastInDim S50000x128 ![0, 1] bcast_S1x128_S50000x128_0_1 (broadcastInDim S1x128 ![1] bcast_S128_S1x128_1 (val_main_v255 (F := F) A.a0 A.a1 A.a2 A.a3 A.a4 A.a5 A.a6 A.a7 A.a8 A.a9 A.a10)))) (broadcastInDim S50000x128 ![0, 1] bcast_S1x128_S50000x128_0_1 (broadcastInDim S1x128 ![1] bcast_S128_S1x128_1 (val_main_v237 (F := F) A.a9)))) (broadcastInDim S50000x128 ![0, 1] bcast_S1x128_S50000x128_0_1 (broadcastInDim S1x128 ![1] bcast_S128_S1x128_1 (val_main_v239 (F := F) A.a10))))
        (broadcastInDim S50000x128 ![] bcast_S_S50000x128 (constant (F := F) S_ .f32 0x00000000#32)) := rfl
/-- `Base` carries from contents `X` to contents `Y` that agree with them on its fifteen buffers. -/
theorem carry {X Y : Valuation τ sig (Elt F)} (h : Base X A)
    (e0 : Y (Proc.devRef .tc main_arg0) = X (Proc.devRef .tc main_arg0)) (e1 : Y (Proc.devRef .tc main_arg1) = X (Proc.devRef .tc main_arg1))
    (e2 : Y (Proc.devRef .tc main_arg2) = X (Proc.devRef .tc main_arg2)) (e3 : Y (Proc.devRef .tc main_arg3) = X (Proc.devRef .tc main_arg3))
    (e4 : Y (Proc.devRef .tc main_arg4) = X (Proc.devRef .tc main_arg4)) (e5 : Y (Proc.devRef .tc main_arg5) = X (Proc.devRef .tc main_arg5))
    (e6 : Y (Proc.devRef .tc main_arg6) = X (Proc.devRef .tc main_arg6)) (e7 : Y (Proc.devRef .tc main_arg7) = X (Proc.devRef .tc main_arg7))
    (e8 : Y (Proc.devRef .tc main_arg8) = X (Proc.devRef .tc main_arg8)) (e9 : Y (Proc.devRef .tc main_arg9) = X (Proc.devRef .tc main_arg9))
    (e10 : Y (Proc.devRef .tc main_arg10) = X (Proc.devRef .tc main_arg10))
    (f1 : Y (Proc.devRef .tc main_v1) = X (Proc.devRef .tc main_v1)) (f3 : Y (Proc.devRef .tc main_v3) = X (Proc.devRef .tc main_v3))
    (f5 : Y (Proc.devRef .tc main_v5) = X (Proc.devRef .tc main_v5)) (f7 : Y (Proc.devRef .tc main_v7) = X (Proc.devRef .tc main_v7)) :
    Base Y A :=
  ⟨e0.trans h.arg0, e1.trans h.arg1, e2.trans h.arg2, e3.trans h.arg3, e4.trans h.arg4, e5.trans h.arg5, e6.trans h.arg6,
   e7.trans h.arg7, e8.trans h.arg8, e9.trans h.arg9, e10.trans h.arg10, f1.trans h.v1, f3.trans h.v3, f5.trans h.v5, f7.trans h.v7⟩
end Stages

/-! ## The walk -/

variable (m : (ℓ : Loc nD τ sig) → Buf (Elt Ideal) ℓ) (ρ : Dev nD → PrngReg) (c : Dev nD)

/-- The eleven argument arrays as launched on core `c`. -/
def args : Args Ideal where
  a0 := (m ((c : Thread nD τ).loc main_arg0))
  a1 := (m ((c : Thread nD τ).loc main_arg1))
  a2 := (m ((c : Thread nD τ).loc main_arg2))
  a3 := (m ((c : Thread nD τ).loc main_arg3))
  a4 := (m ((c : Thread nD τ).loc main_arg4))
  a5 := (m ((c : Thread nD τ).loc main_arg5))
  a6 := (m ((c : Thread nD τ).loc main_arg6))
  a7 := (m ((c : Thread nD τ).loc main_arg7))
  a8 := (m ((c : Thread nD τ).loc main_arg8))
  a9 := (m ((c : Thread nD τ).loc main_arg9))
  a10 := (m ((c : Thread nD τ).loc main_arg10))

/-! ### Up to the first linear layer -/

theorem b1 : Base (W1 m ρ c) (args m c) :=
  Host.base0 (W0 m ρ c) (args m c) rfl rfl rfl rfl rfl rfl rfl rfl rfl rfl rfl

theorem w1 : W1 m ρ c (Proc.devRef .tc main_v9) = val_main_v9 (F := Ideal) (args m c).a5 :=
  Host.w0_sc (W0 m ρ c) (args m c) rfl

/-- The first linear layer's array: the reference's first `dot_general`. -/
theorem l2 : W2 m ρ c (Proc.devRef .tc main_v10) = val_main_v12 (F := Ideal) (args m c).a0 (args m c).a5 := by
  refine (W2_arr m ρ c 2).trans ((Lin0.final (V1 m ρ) c).trans ?_)
  show lin (W1 m ρ c (Proc.devRef .tc main_arg0)) (W1 m ρ c (Proc.devRef .tc main_v9)) = _
  rw [(b1 m ρ c).arg0, w1 m ρ c, lin0_sc_stage]
  exact Bridge.lin_eq_dot _ _

theorem b2 : Base (W2 m ρ c) (args m c) :=
  carry (args m c) (X := W1 m ρ c) (Y := W2 m ρ c) (b1 m ρ c)
    ((W2_arr m ρ c 0).trans (((dat0 (V1 m ρ) c).arrAt_in 0 rfl _).trans (A_eq0 (V1 m ρ) c 0)))
    (W2_of_ne m ρ c main_arg1 (by decide))
    (W2_of_ne m ρ c main_arg2 (by decide))
    (W2_of_ne m ρ c main_arg3 (by decide))
    (W2_of_ne m ρ c main_arg4 (by decide))
    (W2_of_ne m ρ c main_arg5 (by decide))
    (W2_of_ne m ρ c main_arg6 (by decide))
    (W2_of_ne m ρ c main_arg7 (by decide))
    (W2_of_ne m ρ c main_arg8 (by decide))
    (W2_of_ne m ρ c main_arg9 (by decide))
    (W2_of_ne m ρ c main_arg10 (by decide))
    (W2_of_ne m ρ c main_v1 (by decide))
    (W2_of_ne m ρ c main_v3 (by decide))
    (W2_of_ne m ρ c main_v5 (by decide))
    (W2_of_ne m ρ c main_v7 (by decide))

/-! ### Up to the second linear layer of the first layer -/

theorem b5 : Base (W5 m ρ c) (args m c) := Host.base1 (W2 m ρ c) (args m c) (b2 m ρ c)

theorem s5 : W5 m ρ c (Proc.devRef .tc main_v51) = val_main_v53 (F := Ideal) (args m c).a0 (args m c).a1 (args m c).a2 (args m c).a5 :=
  Host.agg0_sc (W2 m ρ c) (args m c) (b2 m ρ c) (l2 m ρ c)

theorem w5 : W5 m ρ c (Proc.devRef .tc main_v53) = val_main_v58 (F := Ideal) (args m c).a7 :=
  Host.w0_fc (W2 m ρ c) (args m c) (b2 m ρ c)

theorem l6 : W6 m ρ c (Proc.devRef .tc main_v54) = val_main_v61 (F := Ideal) (args m c).a0 (args m c).a7 := by
  refine (W6_arr m ρ c 2).trans ((Lin1.final (V5 m ρ) c).trans ?_)
  show lin (W5 m ρ c (Proc.devRef .tc main_arg0)) (W5 m ρ c (Proc.devRef .tc main_v53)) = _
  rw [(b5 m ρ c).arg0, w5 m ρ c, lin0_fc_stage]
  exact Bridge.lin_eq_dot _ _

theorem s6 : W6 m ρ c (Proc.devRef .tc main_v51) = val_main_v53 (F := Ideal) (args m c).a0 (args m c).a1 (args m c).a2 (args m c).a5 :=
  (W6_of_ne m ρ c main_v51 (by decide)).trans (s5 m ρ c)

theorem b6 : Base (W6 m ρ c) (args m c) :=
  carry (args m c) (X := W5 m ρ c) (Y := W6 m ρ c) (b5 m ρ c)
    ((W6_arr m ρ c 0).trans (((dat1 (V5 m ρ) c).arrAt_in 0 rfl _).trans (A_eq1 (V5 m ρ) c 0)))
    (W6_of_ne m ρ c main_arg1 (by decide))
    (W6_of_ne m ρ c main_arg2 (by decide))
    (W6_of_ne m ρ c main_arg3 (by decide))
    (W6_of_ne m ρ c main_arg4 (by decide))
    (W6_of_ne m ρ c main_arg5 (by decide))
    (W6_of_ne m ρ c main_arg6 (by decide))
    (W6_of_ne m ρ c main_arg7 (by decide))
    (W6_of_ne m ρ c main_arg8 (by decide))
    (W6_of_ne m ρ c main_arg9 (by decide))
    (W6_of_ne m ρ c main_arg10 (by decide))
    (W6_of_ne m ρ c main_v1 (by decide))
    (W6_of_ne m ρ c main_v3 (by decide))
    (W6_of_ne m ρ c main_v5 (by decide))
    (W6_of_ne m ρ c main_v7 (by decide))

/-! ### The first batch normalization -/

theorem b9 : Base (W9 m ρ c) (args m c) := Host.base2 (W6 m ρ c) (args m c) (b6 m ρ c)

theorem hs9 : W9 m ρ c (Proc.devRef .tc main_v104) = val_main_v106 (F := Ideal) (args m c).a0 (args m c).a1 (args m c).a2 (args m c).a3 (args m c).a4 (args m c).a5 (args m c).a6 (args m c).a7 (args m c).a8 :=
  Host.sum0 (W6 m ρ c) (args m c) (b6 m ρ c) Bridge.regroup (l6 m ρ c) (s6 m ρ c)
theorem mu9 : W9 m ρ c (Proc.devRef .tc main_v122) = shapeCast S1x128 (val_main_v113 (F := Ideal) (args m c).a0 (args m c).a1 (args m c).a2 (args m c).a3 (args m c).a4 (args m c).a5 (args m c).a6 (args m c).a7 (args m c).a8) shapeCasts_S128_S1x128 :=
  Host.mean0 (W6 m ρ c) (args m c) (b6 m ρ c) Bridge.regroup (l6 m ρ c) (s6 m ρ c)
theorem is9 : W9 m ρ c (Proc.devRef .tc main_v123) = shapeCast S1x128 (val_main_v126 (F := Ideal) (args m c).a0 (args m c).a1 (args m c).a2 (args m c).a3 (args m c).a4 (args m c).a5 (args m c).a6 (args m c).a7 (args m c).a8) shapeCasts_S128_S1x128 :=
  Host.invstd0 (W6 m ρ c) (args m c) (b6 m ρ c) Bridge.regroup (l6 m ρ c) (s6 m ρ c)
theorem g9 : W9 m ρ c (Proc.devRef .tc main_v124) = shapeCast S1x128 (val_main_v108 (F := Ideal) (args m c).a9) shapeCasts_S128_S1x128 :=
  Host.gamma0 (W6 m ρ c) (args m c) (b6 m ρ c)
theorem be9 : W9 m ρ c (Proc.devRef .tc main_v125) = shapeCast S1x128 (val_main_v110 (F := Ideal) (args m c).a10) shapeCasts_S128_S1x128 :=
  Host.beta0 (W6 m ρ c) (args m c) (b6 m ρ c)

/-- The first layer's output: the reference's first `relu`. -/
theorem h10 : W10 m ρ c (Proc.devRef .tc main_v126) = val_main_v136 (F := Ideal) (args m c).a0 (args m c).a1 (args m c).a2 (args m c).a3 (args m c).a4 (args m c).a5 (args m c).a6 (args m c).a7 (args m c).a8 (args m c).a9 (args m c).a10 := by
  refine (W10_arr m ρ c 5).trans ((Bn2.final (V9 m ρ) c).trans ?_)
  show bnrelu (W9 m ρ c (Proc.devRef .tc main_v104)) (W9 m ρ c (Proc.devRef .tc main_v122)) (W9 m ρ c (Proc.devRef .tc main_v123))
    (W9 m ρ c (Proc.devRef .tc main_v124)) (W9 m ρ c (Proc.devRef .tc main_v125)) = _
  rw [hs9 m ρ c, mu9 m ρ c, is9 m ρ c, g9 m ρ c, be9 m ρ c, bn0_stage]
  exact Bridge.bn_eq _ _ _ _ _

theorem b10 : Base (W10 m ρ c) (args m c) :=
  carry (args m c) (X := W9 m ρ c) (Y := W10 m ρ c) (b9 m ρ c)
    (W10_of_ne m ρ c main_arg0 (by decide))
    (W10_of_ne m ρ c main_arg1 (by decide))
    (W10_of_ne m ρ c main_arg2 (by decide))
    (W10_of_ne m ρ c main_arg3 (by decide))
    (W10_of_ne m ρ c main_arg4 (by decide))
    (W10_of_ne m ρ c main_arg5 (by decide))
    (W10_of_ne m ρ c main_arg6 (by decide))
    (W10_of_ne m ρ c main_arg7 (by decide))
    (W10_of_ne m ρ c main_arg8 (by decide))
    (W10_of_ne m ρ c main_arg9 (by decide))
    (W10_of_ne m ρ c main_arg10 (by decide))
    (W10_of_ne m ρ c main_v1 (by decide))
    (W10_of_ne m ρ c main_v3 (by decide))
    (W10_of_ne m ρ c main_v5 (by decide))
    (W10_of_ne m ρ c main_v7 (by decide))

/-! ### The second layer's first linear layer -/

theorem b11 : Base (W11 m ρ c) (args m c) := Host.base3 (W10 m ρ c) (args m c) (b10 m ρ c)
theorem w11 : W11 m ρ c (Proc.devRef .tc main_v128) = val_main_v138 (F := Ideal) (args m c).a5 :=
  Host.w1_sc (W10 m ρ c) (args m c) (b10 m ρ c)
theorem h11 : W11 m ρ c (Proc.devRef .tc main_v126) = val_main_v136 (F := Ideal) (args m c).a0 (args m c).a1 (args m c).a2 (args m c).a3 (args m c).a4 (args m c).a5 (args m c).a6 (args m c).a7 (args m c).a8 (args m c).a9 (args m c).a10 :=
  (Host.keep3_h1 (W10 m ρ c)).trans (h10 m ρ c)

theorem l12 : W12 m ρ c (Proc.devRef .tc main_v129) = val_main_v141 (F := Ideal) (args m c).a0 (args m c).a1 (args m c).a2 (args m c).a3 (args m c).a4 (args m c).a5 (args m c).a6 (args m c).a7 (args m c).a8 (args m c).a9 (args m c).a10 := by
  refine (W12_arr m ρ c 2).trans ((Lin3.final (V11 m ρ) c).trans ?_)
  show lin (W11 m ρ c (Proc.devRef .tc main_v126)) (W11 m ρ c (Proc.devRef .tc main_v128)) = _
  rw [h11 m ρ c, w11 m ρ c, lin1_sc_stage]
  exact Bridge.lin_eq_dot _ _

theorem h12 : W12 m ρ c (Proc.devRef .tc main_v126) = val_main_v136 (F := Ideal) (args m c).a0 (args m c).a1 (args m c).a2 (args m c).a3 (args m c).a4 (args m c).a5 (args m c).a6 (args m c).a7 (args m c).a8 (args m c).a9 (args m c).a10 :=
  ((W12_arr m ρ c 0).trans (((dat3 (V11 m ρ) c).arrAt_in 0 rfl _).trans (A_eq3 (V11 m ρ) c 0))).trans (h11 m ρ c)

theorem b12 : Base (W12 m ρ c) (args m c) :=
  carry (args m c) (X := W11 m ρ c) (Y := W12 m ρ c) (b11 m ρ c)
    (W12_of_ne m ρ c main_arg0 (by decide))
    (W12_of_ne m ρ c main_arg1 (by decide))
    (W12_of_ne m ρ c main_arg2 (by decide))
    (W12_of_ne m ρ c main_arg3 (by decide))
    (W12_of_ne m ρ c main_arg4 (by decide))
    (W12_of_ne m ρ c main_arg5 (by decide))
    (W12_of_ne m ρ c main_arg6 (by decide))
    (W12_of_ne m ρ c main_arg7 (by decide))
    (W12_of_ne m ρ c main_arg8 (by decide))
    (W12_of_ne m ρ c main_arg9 (by decide))
    (W12_of_ne m ρ c main_arg10 (by decide))
    (W12_of_ne m ρ c main_v1 (by decide))
    (W12_of_ne m ρ c main_v3 (by decide))
    (W12_of_ne m ρ c main_v5 (by decide))
    (W12_of_ne m ρ c main_v7 (by decide))

/-! ### The second layer's second linear layer -/

theorem b15 : Base (W15 m ρ c) (args m c) := Host.base4 (W12 m ρ c) (args m c) (b12 m ρ c)
theorem s15 : W15 m ρ c (Proc.devRef .tc main_v170) = val_main_v182 (F := Ideal) (args m c).a0 (args m c).a1 (args m c).a2 (args m c).a3 (args m c).a4 (args m c).a5 (args m c).a6 (args m c).a7 (args m c).a8 (args m c).a9 (args m c).a10 :=
  Host.agg1_sc (W12 m ρ c) (args m c) (b12 m ρ c) (l12 m ρ c)
theorem w15 : W15 m ρ c (Proc.devRef .tc main_v172) = val_main_v187 (F := Ideal) (args m c).a7 :=
  Host.w1_fc (W12 m ρ c) (args m c) (b12 m ρ c)
theorem h15 : W15 m ρ c (Proc.devRef .tc main_v126) = val_main_v136 (F := Ideal) (args m c).a0 (args m c).a1 (args m c).a2 (args m c).a3 (args m c).a4 (args m c).a5 (args m c).a6 (args m c).a7 (args m c).a8 (args m c).a9 (args m c).a10 :=
  (Host.keep4_h1 (W12 m ρ c)).trans (h12 m ρ c)

theorem l16 : W16 m ρ c (Proc.devRef .tc main_v173) = val_main_v190 (F := Ideal) (args m c).a0 (args m c).a1 (args m c).a2 (args m c).a3 (args m c).a4 (args m c).a5 (args m c).a6 (args m c).a7 (args m c).a8 (args m c).a9 (args m c).a10 := by
  refine (W16_arr m ρ c 2).trans ((Lin4.final (V15 m ρ) c).trans ?_)
  show lin (W15 m ρ c (Proc.devRef .tc main_v126)) (W15 m ρ c (Proc.devRef .tc main_v172)) = _
  rw [h15 m ρ c, w15 m ρ c, lin1_fc_stage]
  exact Bridge.lin_eq_dot _ _

theorem s16 : W16 m ρ c (Proc.devRef .tc main_v170) = val_main_v182 (F := Ideal) (args m c).a0 (args m c).a1 (args m c).a2 (args m c).a3 (args m c).a4 (args m c).a5 (args m c).a6 (args m c).a7 (args m c).a8 (args m c).a9 (args m c).a10 :=
  (W16_of_ne m ρ c main_v170 (by decide)).trans (s15 m ρ c)

theorem b16 : Base (W16 m ρ c) (args m c) :=
  carry (args m c) (X := W15 m ρ c) (Y := W16 m ρ c) (b15 m ρ c)
    (W16_of_ne m ρ c main_arg0 (by decide))
    (W16_of_ne m ρ c main_arg1 (by decide))
    (W16_of_ne m ρ c main_arg2 (by decide))
    (W16_of_ne m ρ c main_arg3 (by decide))
    (W16_of_ne m ρ c main_arg4 (by decide))
    (W16_of_ne m ρ c main_arg5 (by decide))
    (W16_of_ne m ρ c main_arg6 (by decide))
    (W16_of_ne m ρ c main_arg7 (by decide))
    (W16_of_ne m ρ c main_arg8 (by decide))
    (W16_of_ne m ρ c main_arg9 (by decide))
    (W16_of_ne m ρ c main_arg10 (by decide))
    (W16_of_ne m ρ c main_v1 (by decide))
    (W16_of_ne m ρ c main_v3 (by decide))
    (W16_of_ne m ρ c main_v5 (by decide))
    (W16_of_ne m ρ c main_v7 (by decide))

/-! ### The second batch normalization: the result -/

theorem hs19 : W19 m ρ c (Proc.devRef .tc main_v223) = val_main_v235 (F := Ideal) (args m c).a0 (args m c).a1 (args m c).a2 (args m c).a3 (args m c).a4 (args m c).a5 (args m c).a6 (args m c).a7 (args m c).a8 (args m c).a9 (args m c).a10 :=
  Host.sum1 (W16 m ρ c) (args m c) (b16 m ρ c) Bridge.regroup (l16 m ρ c) (s16 m ρ c)
theorem mu19 : W19 m ρ c (Proc.devRef .tc main_v241) = shapeCast S1x128 (val_main_v242 (F := Ideal) (args m c).a0 (args m c).a1 (args m c).a2 (args m c).a3 (args m c).a4 (args m c).a5 (args m c).a6 (args m c).a7 (args m c).a8 (args m c).a9 (args m c).a10) shapeCasts_S128_S1x128 :=
  Host.mean1 (W16 m ρ c) (args m c) (b16 m ρ c) Bridge.regroup (l16 m ρ c) (s16 m ρ c)
theorem is19 : W19 m ρ c (Proc.devRef .tc main_v242) = shapeCast S1x128 (val_main_v255 (F := Ideal) (args m c).a0 (args m c).a1 (args m c).a2 (args m c).a3 (args m c).a4 (args m c).a5 (args m c).a6 (args m c).a7 (args m c).a8 (args m c).a9 (args m c).a10) shapeCasts_S128_S1x128 :=
  Host.invstd1 (W16 m ρ c) (args m c) (b16 m ρ c) Bridge.regroup (l16 m ρ c) (s16 m ρ c)
theorem g19 : W19 m ρ c (Proc.devRef .tc main_v243) = shapeCast S1x128 (val_main_v237 (F := Ideal) (args m c).a9) shapeCasts_S128_S1x128 :=
  Host.gamma1 (W16 m ρ c) (args m c) (b16 m ρ c)
theorem be19 : W19 m ρ c (Proc.devRef .tc main_v244) = shapeCast S1x128 (val_main_v239 (F := Ideal) (args m c).a10) shapeCasts_S128_S1x128 :=
  Host.beta1 (W16 m ρ c) (args m c) (b16 m ρ c)

/-- THE RESULT: the kernel program's result buffer at the last boundary is the reference's result stage of the
    arguments as launched. -/
theorem result : W20 m ρ c (Proc.devRef .tc main_v245) = val_main_v265 (F := Ideal) (args m c).a0 (args m c).a1 (args m c).a2 (args m c).a3 (args m c).a4 (args m c).a5 (args m c).a6 (args m c).a7 (args m c).a8 (args m c).a9 (args m c).a10 := by
  refine (W20_arr m ρ c 5).trans ((Bn5.final (V19 m ρ) c).trans ?_)
  show bnrelu (W19 m ρ c (Proc.devRef .tc main_v223)) (W19 m ρ c (Proc.devRef .tc main_v241)) (W19 m ρ c (Proc.devRef .tc main_v242))
    (W19 m ρ c (Proc.devRef .tc main_v243)) (W19 m ρ c (Proc.devRef .tc main_v244)) = _
  rw [hs19 m ρ c, mu19 m ρ c, is19 m ρ c, g19 m ρ c, be19 m ρ c, bn1_stage]
  exact Bridge.bn_eq _ _ _ _ _

end Cert.KernelIdeal.Walk

end
-- ==== Proof.RefRun.lean ====
/-
  The reference program's run, read stretch by stretch.

  The reference is a straight line of 332 array operations: two graph-convolution layers, each the sum of two
  normalized-adjacency aggregations of a linear image of the layer's input (edge list with self loops appended, degrees by a
  scatter-add of the edge weights, their inverse square roots where the degree is positive, the rows gathered, weighted
  and scatter-added, the bias row added), followed by a batch normalization over the rows (column mean, column
  variance, the affine row pair) and the positive part. After the whole line the result array holds the last stage of
  the stage functions `val_main_vN` (one per operation, each a function of the eleven arguments), and no argument has
  changed.

  The fold of the line over the entry contents is the fold of its twelve pieces one after the other. The line is read
  in seven stretches, each entered at ANY contents `X`: a stretch's lemma says that a buffer a later stretch reads
  holds its stage once the buffers the stretch itself reads hold theirs. Between stretches few arrays are live: the
  eleven arguments and the four edge-index rows throughout (`Base`), and besides them one to three computed arrays.
  Every statement is at an arbitrary float family: no arithmetic law is used, only that the same operations are applied
  to the same operands.
-/
import proofs.«401831_j46703474376899_2_alg».proof.Proof.RefOps
import proofs.«401831_j46703474376899_2_alg».proof.Proof.RefReadP
import Idealize.ShloMosaic.Lib.StableHlo.Run
import Idealize.ShloMosaic.Lib.Pipeline.Frame

-- a stretch of some sixty operations is read in one pass
set_option maxHeartbeats 4000000

noncomputable section

namespace Cert.ReferenceIdeal.RunH

open Idealize.ShloMosaic Idealize.ShloMosaic.TcCoe Idealize.SL.Sem Idealize.ShloMosaic.StableHlo
open Cert.ReferenceIdeal Cert.ReferenceIdeal.Gen Cert.ReferenceIdeal.ReadP Cert.ReferenceIdeal.Ops

/-- The result rules applied by rewriting, for the places one simplifier pass does not reach (the operands of a
    concatenation). -/
macro "results_rw" : tactic =>
  `(tactic| repeat (first
       | rw [StableHlo.nullary_result] | rw [StableHlo.unary_result] | rw [StableHlo.binary_result] | rw [StableHlo.ternary_result]
       | rw [StableHlo.reshape_result]
       | (rw [StableHlo.nullary_result_ne]; rotate_left; decide)
       | (rw [StableHlo.unary_result_ne]; rotate_left; decide)
       | (rw [StableHlo.binary_result_ne]; rotate_left; decide)
       | (rw [StableHlo.ternary_result_ne]; rotate_left; decide)
       | (rw [StableHlo.reshape_result_ne]; rotate_left; decide)))

/-- A buffer's contents after a stretch, as the stretch's operations applied to the entry contents. -/
macro "read_stretch" : tactic => `(tactic| (after_results_simp; results_rw))

variable {F : FTy → Type} [FloatOps F]

/-! ## No operation allocates: each determines its results -/

theorem ops0_fresh : (ops0 : List (HloOp τ sig (Elt F))).Forall fun op => op.fresh = ∅ :=
  ⟨rfl, rfl, rfl, rfl, rfl, rfl, rfl, rfl, rfl, rfl, rfl, rfl, rfl⟩
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops2_fresh : (ops2 : List (HloOp τ sig (Elt F))).Forall fun op => op.fresh = ∅ :=
  ⟨rfl, rfl, rfl, rfl, rfl, rfl, rfl, rfl, rfl, rfl, rfl, rfl, rfl⟩
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops4_fresh : (ops4 : List (HloOp τ sig (Elt F))).Forall fun op => op.fresh = ∅ :=
  ⟨rfl, rfl, rfl, rfl, rfl, rfl, rfl, rfl, rfl⟩
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops6_fresh : (ops6 : List (HloOp τ sig (Elt F))).Forall fun op => op.fresh = ∅ :=
  ⟨rfl, rfl, rfl, rfl, rfl, rfl, rfl, rfl, rfl, rfl, rfl⟩
theorem ops7_fresh : (ops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops8_fresh : (ops8 : List (HloOp τ sig (Elt F))).Forall fun op => op.fresh = ∅ :=
  ⟨rfl, rfl, rfl, rfl, rfl, rfl, rfl, rfl, rfl, rfl, rfl⟩
theorem ops9_fresh : (ops9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops10_fresh : (ops10 : List (HloOp τ sig (Elt F))).Forall fun op => op.fresh = ∅ :=
  ⟨rfl, rfl, rfl, rfl, rfl, rfl, rfl, rfl, rfl, rfl, rfl, rfl, rfl, rfl, rfl⟩
theorem ops11_fresh : (ops11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

/-- The same of the whole line: an operation of the line is an operation of one of its pieces. -/
theorem ops_fresh : ∀ op ∈ (ops : List (HloOp τ sig (Elt F))), op.fresh = ∅ := fun op h => by
  simp only [ops, List.mem_append] at h
  rcases h with (h | h) | (h | h) | (h | h | h) | (h | h) | (h | h) | h
  exacts [List.forall_iff_forall_mem.mp ops0_fresh op h, List.forall_iff_forall_mem.mp ops1_fresh op h, List.forall_iff_forall_mem.mp ops2_fresh op h, List.forall_iff_forall_mem.mp ops3_fresh op h, List.forall_iff_forall_mem.mp ops4_fresh op h, List.forall_iff_forall_mem.mp ops5_fresh op h, List.forall_iff_forall_mem.mp ops6_fresh op h, List.forall_iff_forall_mem.mp ops7_fresh op h, List.forall_iff_forall_mem.mp ops8_fresh op h, List.forall_iff_forall_mem.mp ops9_fresh op h, List.forall_iff_forall_mem.mp ops10_fresh op h, List.forall_iff_forall_mem.mp ops11_fresh op h]

/-- The fold of the whole line is the fold of its pieces in turn. -/
theorem after_ops (X : Valuation τ sig (Elt F)) :
    StableHlo.after ops X = StableHlo.after ops11 (StableHlo.after ops10 (StableHlo.after ops9 (StableHlo.after ops8 (StableHlo.after ops7 (StableHlo.after ops6
      (StableHlo.after ops5 (StableHlo.after ops4 (StableHlo.after ops3 (StableHlo.after ops2 (StableHlo.after ops1 (StableHlo.after ops0 X))))))))))) := by
  simp only [ops, StableHlo.after_append]

/-! ## What every boundary carries -/

/-- The eleven argument arrays. -/
structure Args (F : FTy → Type) [FloatOps F] where
  a0 : (⟨S50000x128, .f32⟩ : BufTy).Contents (Elt F)
  a1 : (⟨S2x640000, .i32⟩ : BufTy).Contents (Elt F)
  a2 : (⟨S640000, .f32⟩ : BufTy).Contents (Elt F)
  a3 : (⟨S2x640000, .i32⟩ : BufTy).Contents (Elt F)
  a4 : (⟨S640000, .f32⟩ : BufTy).Contents (Elt F)
  a5 : (⟨S2x128x128, .f32⟩ : BufTy).Contents (Elt F)
  a6 : (⟨S2x128, .f32⟩ : BufTy).Contents (Elt F)
  a7 : (⟨S2x128x128, .f32⟩ : BufTy).Contents (Elt F)
  a8 : (⟨S2x128, .f32⟩ : BufTy).Contents (Elt F)
  a9 : (⟨S2x128, .f32⟩ : BufTy).Contents (Elt F)
  a10 : (⟨S2x128, .f32⟩ : BufTy).Contents (Elt F)

variable (X : Valuation τ sig (Elt F)) (A : Args F)

/-- The argument buffers hold the arguments. -/
structure AtArgs : Prop where
  arg0 : X (Proc.devRef .tc main_arg0) = A.a0
  arg1 : X (Proc.devRef .tc main_arg1) = A.a1
  arg2 : X (Proc.devRef .tc main_arg2) = A.a2
  arg3 : X (Proc.devRef .tc main_arg3) = A.a3
  arg4 : X (Proc.devRef .tc main_arg4) = A.a4
  arg5 : X (Proc.devRef .tc main_arg5) = A.a5
  arg6 : X (Proc.devRef .tc main_arg6) = A.a6
  arg7 : X (Proc.devRef .tc main_arg7) = A.a7
  arg8 : X (Proc.devRef .tc main_arg8) = A.a8
  arg9 : X (Proc.devRef .tc main_arg9) = A.a9
  arg10 : X (Proc.devRef .tc main_arg10) = A.a10

/-- What holds of the contents at every boundary after the first stretch: the argument buffers hold the arguments, and
    the four edge-index rows (sources and targets of the two edge lists) hold their stages. No operation after the
    first stretch writes any of these fifteen buffers. -/
structure Base : Prop where
  arg0 : X (Proc.devRef .tc main_arg0) = A.a0
  arg1 : X (Proc.devRef .tc main_arg1) = A.a1
  arg2 : X (Proc.devRef .tc main_arg2) = A.a2
  arg3 : X (Proc.devRef .tc main_arg3) = A.a3
  arg4 : X (Proc.devRef .tc main_arg4) = A.a4
  arg5 : X (Proc.devRef .tc main_arg5) = A.a5
  arg6 : X (Proc.devRef .tc main_arg6) = A.a6
  arg7 : X (Proc.devRef .tc main_arg7) = A.a7
  arg8 : X (Proc.devRef .tc main_arg8) = A.a8
  arg9 : X (Proc.devRef .tc main_arg9) = A.a9
  arg10 : X (Proc.devRef .tc main_arg10) = A.a10
  v1 : X (Proc.devRef .tc main_v1) = val_main_v1 (F := F) A.a1
  v3 : X (Proc.devRef .tc main_v3) = val_main_v3 (F := F) A.a1
  v5 : X (Proc.devRef .tc main_v5) = val_main_v5 (F := F) A.a3
  v7 : X (Proc.devRef .tc main_v7) = val_main_v7 (F := F) A.a3

/-- Closes a goal that is one of `Base`'s fields. -/
macro "base_field " h:term : tactic =>
  `(tactic| first
      | exact ($h).arg0
      | exact ($h).arg1
      | exact ($h).arg2
      | exact ($h).arg3
      | exact ($h).arg4
      | exact ($h).arg5
      | exact ($h).arg6
      | exact ($h).arg7
      | exact ($h).arg8
      | exact ($h).arg9
      | exact ($h).arg10
      | exact ($h).v1
      | exact ($h).v3
      | exact ($h).v5
      | exact ($h).v7)

/-- Rewrites the entry contents of `Base`'s buffers to the arguments and the edge-index rows' stages, wherever they occur
    (each field on its own: one that does not occur in the goal is passed over). -/
macro "rw_base " h:term : tactic =>
  `(tactic| ((try rw [($h).arg0]); (try rw [($h).arg1]); (try rw [($h).arg2]); (try rw [($h).arg3]); (try rw [($h).arg4]); (try rw [($h).arg5]); (try rw [($h).arg6]); (try rw [($h).arg7]); (try rw [($h).arg8]); (try rw [($h).arg9]); (try rw [($h).arg10]); (try rw [($h).v1]); (try rw [($h).v3]); (try rw [($h).v5]); (try rw [($h).v7])))

/-! ## The edge-index rows, the first bias row and the first linear image (operations 1 … 13) -/

theorem base0 (ha : AtArgs X A) : Base (StableHlo.after ops0 X) A := by
  constructor <;> read_stretch <;> first
    | exact ha.arg0 | exact ha.arg1 | exact ha.arg2 | exact ha.arg3 | exact ha.arg4 | exact ha.arg5
    | exact ha.arg6 | exact ha.arg7 | exact ha.arg8 | exact ha.arg9 | exact ha.arg10
    | (rw [ha.arg1]; rfl)
    | (rw [ha.arg3]; rfl)

/-- The first layer's first bias row. -/
theorem v11_0 (ha : AtArgs X A) : StableHlo.after ops0 X (Proc.devRef .tc main_v11) = val_main_v11 (F := F) A.a6 := by
  read_stretch; rw [ha.arg6]; rfl

/-- The features times the first layer's first weight matrix. -/
theorem v12_0 (ha : AtArgs X A) : StableHlo.after ops0 X (Proc.devRef .tc main_v12) = val_main_v12 (F := F) A.a0 A.a5 := by
  read_stretch; rw [ha.arg0, ha.arg5]; rfl

/-! ## The first layer's first aggregation, and its second linear image (operations 14 … 75) -/

abbrev after1 : Valuation τ sig (Elt F) := StableHlo.after ops2 (StableHlo.after ops1 X)

theorem base1 (hb : Base X A) : Base (after1 X) A := by
  constructor <;> read_stretch <;> base_field hb

section
variable (hb : Base X A)
include hb

/-- The first edge list's aggregation of the first linear image, plus the bias row. -/
theorem v56_1 (h11 : X (Proc.devRef .tc main_v11) = val_main_v11 (F := F) A.a6)
    (h12 : X (Proc.devRef .tc main_v12) = val_main_v12 (F := F) A.a0 A.a5) :
    after1 X (Proc.devRef .tc main_v56) = val_main_v56 (F := F) A.a0 A.a1 A.a2 A.a5 A.a6 := by
  read_stretch; rw [h11, h12]; rw_base hb; rfl

/-- The first layer's second bias row. -/
theorem v60_1 : after1 X (Proc.devRef .tc main_v60) = val_main_v60 (F := F) A.a8 := by
  read_stretch; rw_base hb; rfl

/-- The features times the first layer's second weight matrix. -/
theorem v61_1 : after1 X (Proc.devRef .tc main_v61) = val_main_v61 (F := F) A.a0 A.a7 := by
  read_stretch; rw_base hb; rfl
end

/-! ## The first layer's second aggregation, and the sum of the two (operations 76 … 133) -/

abbrev after2 : Valuation τ sig (Elt F) := StableHlo.after ops4 (StableHlo.after ops3 X)

theorem base2 (hb : Base X A) : Base (after2 X) A := by
  constructor <;> read_stretch <;> base_field hb

/-- The array the first batch normalization reads: the sum of the two aggregations, each with its bias row. -/
theorem v106_2 (hb : Base X A) (h56 : X (Proc.devRef .tc main_v56) = val_main_v56 (F := F) A.a0 A.a1 A.a2 A.a5 A.a6)
    (h60 : X (Proc.devRef .tc main_v60) = val_main_v60 (F := F) A.a8) (h61 : X (Proc.devRef .tc main_v61) = val_main_v61 (F := F) A.a0 A.a7) :
    after2 X (Proc.devRef .tc main_v106) = val_main_v106 (F := F) A.a0 A.a1 A.a2 A.a3 A.a4 A.a5 A.a6 A.a7 A.a8 := by
  read_stretch; rw [h56, h60, h61]; rw_base hb; rfl

/-! ## The first batch normalization and positive part, and the second layer's first linear image (operations 134 … 175) -/

theorem base3 (hb : Base X A) : Base (StableHlo.after ops5 X) A := by
  constructor <;> read_stretch <;> base_field hb

section
variable (hb : Base X A)
include hb

/-- The first layer's output: normalized by column, scaled and shifted, its positive part taken. -/
theorem v136_3 (h106 : X (Proc.devRef .tc main_v106) = val_main_v106 (F := F) A.a0 A.a1 A.a2 A.a3 A.a4 A.a5 A.a6 A.a7 A.a8) :
    StableHlo.after ops5 X (Proc.devRef .tc main_v136) = val_main_v136 (F := F) A.a0 A.a1 A.a2 A.a3 A.a4 A.a5 A.a6 A.a7 A.a8 A.a9 A.a10 := by
  read_stretch; rw [h106]; rw_base hb; rfl

/-- The second layer's first bias row. -/
theorem v140_3 : StableHlo.after ops5 X (Proc.devRef .tc main_v140) = val_main_v140 (F := F) A.a6 := by
  read_stretch; rw_base hb; rfl

/-- The first layer's output times the second layer's first weight matrix. -/
theorem v141_3 (h106 : X (Proc.devRef .tc main_v106) = val_main_v106 (F := F) A.a0 A.a1 A.a2 A.a3 A.a4 A.a5 A.a6 A.a7 A.a8) :
    StableHlo.after ops5 X (Proc.devRef .tc main_v141) = val_main_v141 (F := F) A.a0 A.a1 A.a2 A.a3 A.a4 A.a5 A.a6 A.a7 A.a8 A.a9 A.a10 := by
  read_stretch; rw [h106]; rw_base hb; rfl
end

/-! ## The second layer's first aggregation, and its second linear image (operations 176 … 237) -/

abbrev after4 : Valuation τ sig (Elt F) := StableHlo.after ops7 (StableHlo.after ops6 X)

theorem base4 (hb : Base X A) : Base (after4 X) A := by
  constructor <;> read_stretch <;> base_field hb

section
variable (hb : Base X A)
include hb

/-- The first edge list's aggregation of the second layer's first linear image, plus the bias row. -/
theorem v185_4 (h140 : X (Proc.devRef .tc main_v140) = val_main_v140 (F := F) A.a6)
    (h141 : X (Proc.devRef .tc main_v141) = val_main_v141 (F := F) A.a0 A.a1 A.a2 A.a3 A.a4 A.a5 A.a6 A.a7 A.a8 A.a9 A.a10) :
    after4 X (Proc.devRef .tc main_v185) = val_main_v185 (F := F) A.a0 A.a1 A.a2 A.a3 A.a4 A.a5 A.a6 A.a7 A.a8 A.a9 A.a10 := by
  read_stretch; rw [h140, h141]; rw_base hb; rfl

/-- The second layer's second bias row. -/
theorem v189_4 : after4 X (Proc.devRef .tc main_v189) = val_main_v189 (F := F) A.a8 := by
  read_stretch; rw_base hb; rfl

/-- The first layer's output times the second layer's second weight matrix. -/
theorem v190_4 (h136 : X (Proc.devRef .tc main_v136) = val_main_v136 (F := F) A.a0 A.a1 A.a2 A.a3 A.a4 A.a5 A.a6 A.a7 A.a8 A.a9 A.a10) :
    after4 X (Proc.devRef .tc main_v190) = val_main_v190 (F := F) A.a0 A.a1 A.a2 A.a3 A.a4 A.a5 A.a6 A.a7 A.a8 A.a9 A.a10 := by
  read_stretch; rw [h136]; rw_base hb; rfl
end

/-! ## The second layer's second aggregation, and the sum of the two (operations 238 … 295) -/

abbrev after5 : Valuation τ sig (Elt F) := StableHlo.after ops9 (StableHlo.after ops8 X)

theorem base5 (hb : Base X A) : Base (after5 X) A := by
  constructor <;> read_stretch <;> base_field hb

/-- The array the second batch normalization reads. -/
theorem v235_5 (hb : Base X A) (h185 : X (Proc.devRef .tc main_v185) = val_main_v185 (F := F) A.a0 A.a1 A.a2 A.a3 A.a4 A.a5 A.a6 A.a7 A.a8 A.a9 A.a10)
    (h189 : X (Proc.devRef .tc main_v189) = val_main_v189 (F := F) A.a8) (h190 : X (Proc.devRef .tc main_v190) = val_main_v190 (F := F) A.a0 A.a1 A.a2 A.a3 A.a4 A.a5 A.a6 A.a7 A.a8 A.a9 A.a10) :
    after5 X (Proc.devRef .tc main_v235) = val_main_v235 (F := F) A.a0 A.a1 A.a2 A.a3 A.a4 A.a5 A.a6 A.a7 A.a8 A.a9 A.a10 := by
  read_stretch; rw [h185, h189, h190]; rw_base hb; rfl

/-! ## The second batch normalization and positive part (operations 296 … 332) -/

abbrev after6 : Valuation τ sig (Elt F) := StableHlo.after ops11 (StableHlo.after ops10 X)

theorem base6 (hb : Base X A) : Base (after6 X) A := by
  constructor <;> read_stretch <;> base_field hb

/-- The result. -/
theorem v265_6 (hb : Base X A) (h235 : X (Proc.devRef .tc main_v235) = val_main_v235 (F := F) A.a0 A.a1 A.a2 A.a3 A.a4 A.a5 A.a6 A.a7 A.a8 A.a9 A.a10) :
    after6 X (Proc.devRef .tc main_v265) = val_main_v265 (F := F) A.a0 A.a1 A.a2 A.a3 A.a4 A.a5 A.a6 A.a7 A.a8 A.a9 A.a10 := by
  read_stretch; rw [h235]; rw_base hb; rfl

/-! ## The whole line -/

section
variable (ha : AtArgs X A)
include ha

/-- After the whole line the result buffer holds the last stage: each stretch's inputs are the stretch before's outputs. -/
theorem result_v265 : StableHlo.after ops X (Proc.devRef .tc main_v265) = val_main_v265 (F := F) A.a0 A.a1 A.a2 A.a3 A.a4 A.a5 A.a6 A.a7 A.a8 A.a9 A.a10 := by
  rw [after_ops]
  have b0 := base0 X A ha
  have b1 := base1 _ A b0
  have h56 := v56_1 _ A b0 (v11_0 X A ha) (v12_0 X A ha)
  have h60 := v60_1 _ A b0
  have h61 := v61_1 _ A b0
  have b2 := base2 _ A b1
  have h106 := v106_2 _ A b1 h56 h60 h61
  have b3 := base3 _ A b2
  have h136 := v136_3 _ A b2 h106
  have h140 := v140_3 _ A b2
  have h141 := v141_3 _ A b2 h106
  have b4 := base4 _ A b3
  have h185 := v185_4 _ A b3 h140 h141
  have h189 := v189_4 _ A b3
  have h190 := v190_4 _ A b3 h136
  have b5 := base5 _ A b4
  have h235 := v235_5 _ A b4 h185 h189 h190
  exact v265_6 _ A b5 h235

/-- After the whole line the argument buffers still hold the arguments. -/
theorem base_end : Base (StableHlo.after ops X) A := by
  rw [after_ops]
  exact base6 _ A (base5 _ A (base4 _ A (base3 _ A (base2 _ A (base1 _ A (base0 X A ha))))))
end

/-- The eleven arguments as device `c` holds them at launch. -/
abbrev argsAt (m : (ℓ : Loc nD τ sig) → Buf (Elt F) ℓ) (c : Dev nD) : Args F :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10)⟩

theorem atArgs_launch (m : (ℓ : Loc nD τ sig) → Buf (Elt F) ℓ) (c : Dev nD) : AtArgs (launchContents m c) (argsAt m c) :=
  ⟨rfl, rfl, rfl, rfl, rfl, rfl, rfl, rfl, rfl, rfl, rfl⟩

/-- The run of the line: every weakly fair execution terminates, and each buffer of each device ends at the fold of the
    operations' results over the device's launch contents. -/
theorem run_fold (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = StableHlo.after ops (launchContents m d) (Proc.devRef .tc b) :=
  run_seq scopedRefs_eq scopedSems_eq defs main (fun _ => ops) main_eq (fun _ => ops_sub) m ρ (fun _ => ops_fresh)

/-- On one device: a memory that holds the fold at every buffer holds the last stage of the launch arguments at the
    result buffer, and the launch arguments at the argument buffers. -/
theorem run_point (m : (ℓ : Loc nD τ sig) → Buf (Elt F) ℓ) (c : Dev nD) (mem : (ℓ : Loc nD τ sig) → Buf (Elt F) ℓ)
    (h : ∀ b : Ref sig .tc, mem ((c.tc : Thread nD τ).loc b) = StableHlo.after ops (launchContents m c) (Proc.devRef .tc b)) :
    mem ((c.tc : Thread nD τ).loc main_v265) = val_main_v265 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)
      ∧ mem ((c.tc : Thread nD τ).loc main_arg10) = m ((c.tc : Thread nD τ).loc main_arg10) := by
  have ha := atArgs_launch (F := F) m c
  have hb := base_end _ _ ha
  have hr := result_v265 _ _ ha
  exact ⟨(h main_v265).trans hr, (h main_arg0).trans hb.arg0, (h main_arg1).trans hb.arg1, (h main_arg2).trans hb.arg2, (h main_arg3).trans hb.arg3, (h main_arg4).trans hb.arg4, (h main_arg5).trans hb.arg5, (h main_arg6).trans hb.arg6, (h main_arg7).trans hb.arg7, (h main_arg8).trans hb.arg8, (h main_arg9).trans hb.arg9, (h main_arg10).trans hb.arg10⟩

/-- On every device, for any float values, from any memory with zero counters: every weakly fair execution of @main
    terminates with the result buffer at the last stage of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v265) = val_main_v265 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => run_point m c r.2.mem (h c)) (run_fold m ρ)

end Cert.ReferenceIdeal.RunH

end
-- ==== Proof.lean ====
/-
  The certificate of a two-layer graph convolution with two edge lists: per layer, each branch is a linear layer
  `h W`, the symmetric-normalized aggregation over the edge list with self loops, and a bias; the two branches are
  summed, batch-normalized with the batch's own column statistics, and passed through the positive part.
  The kernel program runs the four linear layers and the two batch normalizations as pallas_calls over ten row blocks
  and everything else on the host; the reference runs everything on the host.

  Frames: the kernel program's two frames are generated whole; the reference's is its run, read by hand stretch by
  stretch, with the result dropped. The idealization's ledger is empty. Equality of the results at the ideal instance:
  the kernel program's run with its result buffer read off the last boundary's contents; those contents walked from the
  launch, boundary by boundary, to the reference's result stage of the arguments (a linear layer's blocks make the
  host's `dot_general`; the sum before a normalization is regrouped by commutativity and associativity of addition on
  the extended reals, so no finiteness of the inputs is used; a normalization's blocks make the reference's five
  operations and the maximum with zero); and the reference's run, which ends at the same stage of arguments that agree.
-/
import proofs.«401831_j46703474376899_2_alg».proof.Defs
import proofs.«401831_j46703474376899_2_alg».proof.Proof.Gen.Kernel
import proofs.«401831_j46703474376899_2_alg».proof.Proof.Gen.Kernel.Frame
import proofs.«401831_j46703474376899_2_alg».proof.Proof.Gen.KernelIdeal
import proofs.«401831_j46703474376899_2_alg».proof.Proof.Gen.KernelIdeal.Frame
import proofs.«401831_j46703474376899_2_alg».proof.Proof.Gen.ReferenceIdeal
import proofs.«401831_j46703474376899_2_alg».proof.Proof.Gen.Pre_finite_inputs
import proofs.«401831_j46703474376899_2_alg».proof.Proof.RunNamed
import proofs.«401831_j46703474376899_2_alg».proof.Proof.KWalk
import proofs.«401831_j46703474376899_2_alg».proof.Proof.RefRun
import Idealize.ShloMosaic.Adequacy
import Idealize.ShloMosaic.Init

noncomputable section

namespace Cert.Proof

open Idealize.ShloMosaic Idealize.ShloMosaic.TcCoe Idealize.SL.Sem
open Cert.ReferenceIdeal.ReadP (val_main_v265)

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.RunH.run (F := Ideal) m ρ)

/-- The idealization applied no rewrite. -/
theorem preserves : Cert.preserves_Kernel_KernelIdeal := trivial

/-- Both programs end with the reference's result stage of the launch arguments in their result buffers. -/
theorem algebraic : Cert.algebraic_KernelIdeal_ReferenceIdeal := by
  intro m ρ m' ρ' _ hagree
  refine ⟨fun c => val_main_v265 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Walk.result m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.RunH.run (F := Ideal) m' ρ')
    obtain ⟨e0, e1, e2, e3, e4, e5, e6, e7, e8, e9, e10⟩ := hagree c
    rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
